-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S1048576 : Shape := ⟨1, ![1048576]⟩
abbrev S256 : Shape := ⟨1, ![256]⟩
abbrev S4096x1 : Shape := ⟨2, ![4096, 1]⟩
abbrev S4096 : Shape := ⟨1, ![4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg6 : IVec S4096 32) (main_arg7 : IVec S4096 32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_c_6 : IVec S_ 32 := constantI S_ 32 4294963200#32
  let main_v19 : IVec S4096 32 := broadcastInDim S4096 ![] bcast_S_S4096 main_c_6
  let main_v20 : IVec S4096 1 := cmpi .sge main_arg6 main_v19
  let main_c_7 : IVec S_ 32 := constantI S_ 32 4096#32
  let main_v21 : IVec S4096 32 := broadcastInDim S4096 ![] bcast_S_S4096 main_c_7
  let main_v22 : IVec S4096 1 := cmpi .slt main_arg6 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  let main_c_9 : IVec S_ 32 := constantI S_ 32 4294963200#32
  let main_v26 : IVec S4096 32 := broadcastInDim S4096 ![] bcast_S_S4096 main_c_9
  let main_v27 : IVec S4096 1 := cmpi .sge main_arg7 main_v26
  let main_c_10 : IVec S_ 32 := constantI S_ 32 4096#32
  let main_v28 : IVec S4096 32 := broadcastInDim S4096 ![] bcast_S_S4096 main_c_10
  let main_v29 : IVec S4096 1 := cmpi .slt main_arg7 main_v28
  let main_v30 : IVec S4096 1 := andi main_v27 main_v29
  let main_c_11 : IVec S_ 1 := constantI S_ 1 1#1
  let main_v31 : IVec S_ 1 := (fun x v => Host.reduce IntOp.andi x v reducesTo_S4096_S_d0 h_S_) main_v30 main_c_11
  let main_v32 : IVec S_ 1 := andi main_v25 main_v31
  main_v32

def fn {F : FTy → Type} [FloatOps F] (main_arg0 : FVec F S4x2048x4096 .f32) (main_arg1 : IVec S1048576 32) (main_arg2 : IVec S256 32) (main_arg3 : FVec F S4096x1 .f32) (main_arg4 : FVec F S4096 .f32) (main_arg5 : FVec F S4096x4096 .f32) (main_arg6 : IVec S4096 32) (main_arg7 : IVec S4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg3
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg5
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg6 main_arg7 main_v13 main_v16
-- ==== Kernel.lean ====
abbrev S4x2048x4096 : Shape := ⟨3, ![4, 2048, 4096]⟩
abbrev S1048576 : Shape := ⟨1, ![1048576]⟩
abbrev S256 : Shape := ⟨1, ![256]⟩
abbrev S4096x1 : Shape := ⟨2, ![4096, 1]⟩
abbrev S4096 : Shape := ⟨1, ![4096]⟩
abbrev S4096x4096 : Shape := ⟨2, ![4096, 4096]⟩
abbrev S16 : Shape := ⟨1, ![16]⟩
abbrev S_ : Shape := ⟨0, ![]⟩
abbrev S1048576x1 : Shape := ⟨2, ![1048576, 1]⟩
abbrev S1x16 : Shape := ⟨2, ![1, 16]⟩
abbrev S1048576x16 : Shape := ⟨2, ![1048576, 16]⟩
abbrev S16777216 : Shape := ⟨1, ![16777216]⟩
abbrev S256x1 : Shape := ⟨2, ![256, 1]⟩
abbrev S256x16 : Shape := ⟨2, ![256, 16]⟩
abbrev S1 : Shape := ⟨1, ![1]⟩
abbrev S1x1 : Shape := ⟨2, ![1, 1]⟩
abbrev S1024x1024 : Shape := ⟨2, ![1024, 1024]⟩
abbrev S8192x4096 : Shape := ⟨2, ![8192, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 95
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S1048576, .i32⟩
  | .hbm, ⟨2, _⟩ => ⟨S256, .i32⟩
  | .hbm, ⟨3, _⟩ => ⟨S4096x1, .f32⟩
  | .hbm, ⟨4, _⟩ => ⟨S4096, .f32⟩
  | .hbm, ⟨5, _⟩ => ⟨S4096x4096, .f32⟩
  | .hbm, ⟨6, _⟩ => ⟨S4096, .i32⟩
  | .hbm, ⟨7, _⟩ => ⟨S4096, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S1048576x1, .i32⟩
  | .hbm, ⟨13, _⟩ => ⟨S1x16, .i32⟩
  | .hbm, ⟨14, _⟩ => ⟨S1048576x16, .i32⟩
  | .hbm, ⟨15, _⟩ => ⟨S1048576x16, .i32⟩
  | .hbm, ⟨16, _⟩ => ⟨S1048576x16, .i32⟩
  | .hbm, ⟨17, _⟩ => ⟨S_, .i32⟩
  | .hbm, ⟨18, _⟩ => ⟨S1048576x16, .i32⟩
  | .hbm, ⟨19, _⟩ => ⟨S1048576x16, .i32⟩
  | .hbm, ⟨20, _⟩ => ⟨S16777216, .i32⟩
  | .hbm, ⟨21, _⟩ => ⟨S16777216, .f32⟩
  | .hbm, ⟨22, _⟩ => ⟨S4096x4096, .f32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S256x1, .i32⟩
  | .hbm, ⟨28, _⟩ => ⟨S1x16, .i32⟩
  | .hbm, ⟨29, _⟩ => ⟨S256x16, .i32⟩
  | .hbm, ⟨30, _⟩ => ⟨S256x16, .i32⟩
  | .hbm, ⟨31, _⟩ => ⟨S256x16, .i32⟩
  | .hbm, ⟨32, _⟩ => ⟨S_, .i32⟩
  | .hbm, ⟨33, _⟩ => ⟨S256x16, .i32⟩
  | .hbm, ⟨34, _⟩ => ⟨S256x16, .i32⟩
  | .hbm, ⟨35, _⟩ => ⟨S4096, .i32⟩
  | .hbm, ⟨36, _⟩ => ⟨S4096, .f32⟩
  | .hbm, ⟨37, _⟩ => ⟨S4096x1, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S4096x1, .i32⟩
  | .hbm, ⟨50, _⟩ => ⟨S1, .i32⟩
  | .hbm, ⟨51, _⟩ => ⟨S_, .i32⟩
  | .hbm, ⟨52, _⟩ => ⟨S4096x1, .i32⟩
  | .hbm, ⟨53, _⟩ => ⟨S4096x1, .i1⟩
  | .hbm, ⟨54, _⟩ => ⟨S1x1, .i32⟩
  | .hbm, ⟨55, _⟩ => ⟨S4096x1, .i32⟩
  | .hbm, ⟨56, _⟩ => ⟨S4096x1, .i1⟩
  | .hbm, ⟨57, _⟩ => ⟨S4096x1, .i1⟩
  | .hbm, ⟨58, _⟩ => ⟨S_, .i1⟩
  | .hbm, ⟨59, _⟩ => ⟨S4096, .i1⟩
  | .hbm, ⟨60, _⟩ => ⟨S4096x4096, .f32⟩
  | .hbm, ⟨61, _⟩ => ⟨S4096x4096, .i1⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S1, .i32⟩
  | .hbm, ⟨74, _⟩ => ⟨S_, .i32⟩
  | .hbm, ⟨75, _⟩ => ⟨S4096x1, .i32⟩
  | .hbm, ⟨76, _⟩ => ⟨S4096x1, .i1⟩
  | .hbm, ⟨77, _⟩ => ⟨S1x1, .i32⟩
  | .hbm, ⟨78, _⟩ => ⟨S4096x1, .i32⟩
  | .hbm, ⟨79, _⟩ => ⟨S4096x1, .i1⟩
  | .hbm, ⟨80, _⟩ => ⟨S4096x1, .i1⟩
  | .hbm, ⟨81, _⟩ => ⟨S_, .i1⟩
  | .hbm, ⟨82, _⟩ => ⟨S4096, .i1⟩
  | .hbm, ⟨83, _⟩ => ⟨S4096x4096, .f32⟩
  | .hbm, ⟨84, _⟩ => ⟨S4096x4096, .i1⟩
  | .hbm, ⟨85, _⟩ => ⟨S_, .f32⟩
  | .hbm, ⟨86, _⟩ => ⟨S4096x4096, .f32⟩
  | .hbm, ⟨87, _⟩ => ⟨S4096x4096, .f32⟩
  | .hbm, ⟨88, _⟩ => ⟨S4096x4096, .bf16⟩
  | .hbm, ⟨89, _⟩ => ⟨S4096x4096, .bf16⟩
  | .hbm, ⟨90, _⟩ => ⟨S4096x4096, .bf16⟩
  | .hbm, ⟨91, _⟩ => ⟨S8192x4096, .f32⟩
  | .hbm, ⟨92, _⟩ => ⟨S1x4096, .f32⟩
  | .hbm, ⟨93, _⟩ => ⟨S8192x4096, .f32⟩
  | .hbm, ⟨94, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x512, .f32⟩
  | .local _ .vmem, ⟨8, _⟩ => ⟨S1024x512, .f32⟩
  | .local _ .vmem, ⟨9, _⟩ => ⟨S2048x512, .bf16⟩
  | .local _ .vmem, ⟨10, _⟩ => ⟨S2048x512, .bf16⟩
  | .local _ .vmem, ⟨11, _⟩ => ⟨S1x2048, .f32⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v30 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S16 : S_.BroadcastsInDim S16 (![] : Fin 0 → Fin S16.rank)
  bcast_S1048576_S1048576x1_0 : S1048576.BroadcastsInDim S1048576x1 (![0] : Fin 1 → Fin S1048576x1.rank)
  bcast_S16_S1x16_1 : S16.BroadcastsInDim S1x16 (![1] : Fin 1 → Fin S1x16.rank)
  bcast_S1048576x1_S1048576x16_0_1 : S1048576x1.BroadcastsInDim S1048576x16 (![0, 1] : Fin 2 → Fin S1048576x16.rank)
  bcast_S1x16_S1048576x16_0_1 : S1x16.BroadcastsInDim S1048576x16 (![0, 1] : Fin 2 → Fin S1048576x16.rank)
  bcast_S_S1048576x16 : S_.BroadcastsInDim S1048576x16 (![] : Fin 0 → Fin S1048576x16.rank)
  shapeCasts_S1048576x16_S16777216 : S1048576x16.ShapeCasts S16777216
  shapeCasts_S16777216_S4096x4096 : S16777216.ShapeCasts S4096x4096
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  bcast_S1x16_S256x16_0_1 : S1x16.BroadcastsInDim S256x16 (![0, 1] : Fin 2 → Fin S256x16.rank)
  bcast_S_S256x16 : S_.BroadcastsInDim S256x16 (![] : Fin 0 → Fin S256x16.rank)
  shapeCasts_S256x16_S4096 : S256x16.ShapeCasts S4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x4096_0 : S4096.BroadcastsInDim S4096x4096 (![0] : Fin 1 → Fin S4096x4096.rank)
  bcast_S_S4096x4096 : S_.BroadcastsInDim S4096x4096 (![] : Fin 0 → Fin S4096x4096.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  gather_S4096x4096_S4096x1_S4096x4096_1_0_n_n_0_1_14096_wf : GatherDims.WF S4096x4096 S4096x1 S4096x4096 [1] [0] [] [0] [] 1 ![1, 4096]
  dot_S1024x1024_S1024x1024_S1024x1024_1_1_0_0_n_n_wf : DotDims.WF S1024x1024 S1024x1024 S1024x1024 [1] [1] [0] [0] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def gather_S4096x4096_S4096x1_S4096x4096_1_0_n_n_0_1_14096 : GatherDims S4096x4096 S4096x1 S4096x4096 where
  offsetDims := [1]
  collapsedSliceDims := [0]
  operandBatchingDims := []
  startIndicesBatchingDims := []
  startIndexMap := [0]
  indexVectorDim := 1
  sliceSizes := ![1, 4096]
  wf := gather_S4096x4096_S4096x1_S4096x4096_1_0_n_n_0_1_14096_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v32) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v35) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S1048576 : Shape := ⟨1, ![1048576]⟩
abbrev S256 : Shape := ⟨1, ![256]⟩
abbrev S4096x1 : Shape := ⟨2, ![4096, 1]⟩
abbrev S4096 : Shape := ⟨1, ![4096]⟩
abbrev S4096x4096 : Shape := ⟨2, ![4096, 4096]⟩
abbrev S16 : Shape := ⟨1, ![16]⟩
abbrev S_ : Shape := ⟨0, ![]⟩
abbrev S1048576x1 : Shape := ⟨2, ![1048576, 1]⟩
abbrev S1x16 : Shape := ⟨2, ![1, 16]⟩
abbrev S1048576x16 : Shape := ⟨2, ![1048576, 16]⟩
abbrev S16777216 : Shape := ⟨1, ![16777216]⟩
abbrev S256x1 : Shape := ⟨2, ![256, 1]⟩
abbrev S256x16 : Shape := ⟨2, ![256, 16]⟩
abbrev S1x1x4096 : Shape := ⟨3, ![1, 1, 4096]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1048576, .i32⟩
  | .hbm, ⟨2, _⟩ => ⟨S256, .i32⟩
  | .hbm, ⟨3, _⟩ => ⟨S4096x1, .f32⟩
  | .hbm, ⟨4, _⟩ => ⟨S4096, .f32⟩
  | .hbm, ⟨5, _⟩ => ⟨S4096x4096, .f32⟩
  | .hbm, ⟨6, _⟩ => ⟨S4096, .i32⟩
  | .hbm, ⟨7, _⟩ => ⟨S4096, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S1048576x1, .i32⟩
  | .hbm, ⟨13, _⟩ => ⟨S1x16, .i32⟩
  | .hbm, ⟨14, _⟩ => ⟨S1048576x16, .i32⟩
  | .hbm, ⟨15, _⟩ => ⟨S1048576x16, .i32⟩
  | .hbm, ⟨16, _⟩ => ⟨S1048576x16, .i32⟩
  | .hbm, ⟨17, _⟩ => ⟨S_, .i32⟩
  | .hbm, ⟨18, _⟩ => ⟨S1048576x16, .i32⟩
  | .hbm, ⟨19, _⟩ => ⟨S1048576x16, .i32⟩
  | .hbm, ⟨20, _⟩ => ⟨S16777216, .i32⟩
  | .hbm, ⟨21, _⟩ => ⟨S16777216, .f32⟩
  | .hbm, ⟨22, _⟩ => ⟨S4096x4096, .f32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S256x1, .i32⟩
  | .hbm, ⟨28, _⟩ => ⟨S1x16, .i32⟩
  | .hbm, ⟨29, _⟩ => ⟨S256x16, .i32⟩
  | .hbm, ⟨30, _⟩ => ⟨S256x16, .i32⟩
  | .hbm, ⟨31, _⟩ => ⟨S256x16, .i32⟩
  | .hbm, ⟨32, _⟩ => ⟨S_, .i32⟩
  | .hbm, ⟨33, _⟩ => ⟨S256x16, .i32⟩
  | .hbm, ⟨34, _⟩ => ⟨S256x16, .i32⟩
  | .hbm, ⟨35, _⟩ => ⟨S4096, .i32⟩
  | .hbm, ⟨36, _⟩ => ⟨S4096, .f32⟩
  | .hbm, ⟨37, _⟩ => ⟨S4096x1, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096x4096, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096x4096, .f32⟩
  | .hbm, ⟨62, _⟩ => ⟨S4x2048x4096, .f32⟩
  | .hbm, ⟨63, _⟩ => ⟨S1x1x4096, .f32⟩
  | .hbm, ⟨64, _⟩ => ⟨S4x2048x4096, .f32⟩
  | .hbm, ⟨65, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S1048576_S1048576x1_0 : S1048576.BroadcastsInDim S1048576x1 (![0] : Fin 1 → Fin S1048576x1.rank)
  bcast_S16_S1x16_1 : S16.BroadcastsInDim S1x16 (![1] : Fin 1 → Fin S1x16.rank)
  bcast_S1048576x1_S1048576x16_0_1 : S1048576x1.BroadcastsInDim S1048576x16 (![0, 1] : Fin 2 → Fin S1048576x16.rank)
  bcast_S1x16_S1048576x16_0_1 : S1x16.BroadcastsInDim S1048576x16 (![0, 1] : Fin 2 → Fin S1048576x16.rank)
  bcast_S_S1048576x16 : S_.BroadcastsInDim S1048576x16 (![] : Fin 0 → Fin S1048576x16.rank)
  shapeCasts_S1048576x16_S16777216 : S1048576x16.ShapeCasts S16777216
  shapeCasts_S16777216_S4096x4096 : S16777216.ShapeCasts S4096x4096
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  bcast_S1x16_S256x16_0_1 : S1x16.BroadcastsInDim S256x16 (![0, 1] : Fin 2 → Fin S256x16.rank)
  bcast_S_S256x16 : S_.BroadcastsInDim S256x16 (![] : Fin 0 → Fin S256x16.rank)
  shapeCasts_S256x16_S4096 : S256x16.ShapeCasts S4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x4096_S4096x4096_S4096x4096_1_0_0_1_n_n_wf : DotDims.WF S4096x4096 S4096x4096 S4096x4096 [1] [0] [0] [1] [] []
  gather_S4096x4096_S4096x1_S4096x4096_0_1_n_n_1_1_40961_wf : GatherDims.WF S4096x4096 S4096x1 S4096x4096 [0] [1] [] [1] [] 1 ![4096, 1]
  gather_S4096x4096_S4096x1_S4096x4096_1_0_n_n_0_1_14096_wf : GatherDims.WF S4096x4096 S4096x1 S4096x4096 [1] [0] [] [0] [] 1 ![1, 4096]
  dot_S4x2048x4096_S4096x4096_S4x2048x4096_2_1_01_0_n_n_wf : DotDims.WF S4x2048x4096 S4096x4096 S4x2048x4096 [2] [1] [0, 1] [0] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def gather_S4096x4096_S4096x1_S4096x4096_1_0_n_n_0_1_14096 : GatherDims S4096x4096 S4096x1 S4096x4096 where
  offsetDims := [1]
  collapsedSliceDims := [0]
  operandBatchingDims := []
  startIndicesBatchingDims := []
  startIndexMap := [0]
  indexVectorDim := 1
  sliceSizes := ![1, 4096]
  wf := gather_S4096x4096_S4096x1_S4096x4096_1_0_n_n_0_1_14096_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KI.R0.lean ====
/- REGION 0 of the program: the blocked product  out[i,j] = bf16( Σ_k  a[i,k] · b[j,k]ᵀ )  on the grid (i,j,k) ∈ 4×4×4,
   point t = 16·i + 4·j + k, stated at the buffer contents V the region is entered with, for any float family.

   The kernel carries one f32 accumulator block across the k axis.  At a point with k = 0 it first overwrites the
   accumulator with the zero block Z; at EVERY point it replaces the accumulator acc by  P(acc, A, B) = acc + A·Bᵀ,
   A and B the two input blocks of the point; at a point with k = 3 it then stores  T(acc) , the bf16 truncation of the
   accumulator, into the output block (i,j).  So after the body at point t the accumulator holds

       accAt t = P(Z, A_t, B_t)                 when t ≡ 0 (mod 4),
       accAt t = P(accAt (t-1), A_t, B_t)       otherwise,

   and the output's staging block holds T(accAt t) exactly at the points t ≡ 3 (mod 4), the only points whose block is
   written back; at the other points the output window is idle: the body hands its buffer back untouched.
   Three control cases over the grid: A (t ≡ 0: reset, no output store), B (t ≡ 1, 2: accumulate only),
   C (t ≡ 3: accumulate, then store the output).  The region invariant holds the accumulator at accAt (t-1) before every
   point but the first, where it is at unknown contents (the reset at k = 0 makes them irrelevant). -/
import proofs.«423795_j79723182949081_2_alg».proof.Proof.Gen.KernelIdeal.Launch
import proofs.«423795_j79723182949081_2_alg».proof.Proof.Gen.KernelIdeal.Skeleton
import proofs.«423795_j79723182949081_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, in closed form over the grid -/

/-- The reset condition (k = 0), as the body computes it from the third grid coordinate. -/
abbrev condZ (i : grid0.Coords) : Prop := (Scalar.cmpi .ne (Scalar.extui (Scalar.cmpi .eq (BitVec.ofNat 32 (i 2).val) 0#32)) 0#32) = 1#1
/-- It holds exactly at the points t ≡ 0 (mod 4). -/
theorem hcondZ : ∀ t : Fin cfg0.N, condZ (grid0.coords t) ↔ t.val % 4 = 0 :=
  (by decide +kernel : ∀ t : Fin grid0.N, condZ (grid0.coords t) ↔ t.val % 4 = 0)

/-- The output condition (k = 3). -/
abbrev condL (i : grid0.Coords) : Prop := k0_cond2 i = 1#1
/-- It holds exactly at the points t ≡ 3 (mod 4). -/
theorem hcondL : ∀ t : Fin cfg0.N, condL (grid0.coords t) ↔ t.val % 4 = 3 :=
  (by decide +kernel : ∀ t : Fin grid0.N, condL (grid0.coords t) ↔ t.val % 4 = 3)

/-! ## Where the windows are idle -/

/-- The two inputs are never idle. -/
theorem live0 : ∀ t : Fin cfg0.N, cfg0.idle 0 (grid0.coords t) = false := by decide +kernel
theorem live1 : ∀ t : Fin cfg0.N, cfg0.idle 1 (grid0.coords t) = false := by decide +kernel
/-- Away from k = 3 the output window is idle and its block is not written back. -/
theorem idle2 : ∀ t : Fin cfg0.N, ¬condL (grid0.coords t) → cfg0.idle 2 (grid0.coords t) = true := by decide +kernel
theorem noFlush2 : ∀ t : Fin cfg0.N, ¬condL (grid0.coords t) → (cfg0.win 2).flush t = false := by decide +kernel
/-- At k = 3 it is live. -/
theorem live2 : ∀ t : Fin cfg0.N, condL (grid0.coords t) → cfg0.idle 2 (grid0.coords t) = false := by decide +kernel

/-! ## The memrefs the body is called with -/

/-- One staging buffer of the output window, through which its contents are stated. -/
abbrev VO : View sig .tc .vmem S1024x1024 .bf16 := (Memref.whole cc0_stg2_0 : Memref sig .tc .vmem S1024x1024 .bf16).view
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
/-- The accumulator: a whole scoped buffer of the kernel's own. -/
abbrev scM : Memref sig .tc .vmem S1024x1024 .f32 := Memref.whole cc0_scratch0
abbrev VS : View sig .tc .vmem S1024x1024 .f32 := scM.view

/-- What the region is handed beside its windows: the accumulator owned at some contents, the core's other scoped
    buffers (the other region's staging buffers and scratch) unopened, the generator register at some state. -/
abbrev others (c : Dev nD) : sProp 𝕄 :=
  Pipeline.scopedRestBut (Ix := Unit) (Name := ℕ) (U := UR sig nD τ) (Lvl := ℕ) (Val := Elt F) spec0 c [cc0_scratch0]

theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others
  rw [Pipeline.scopedRest_split_of_list spec0 c [cc0_scratch0] (by decide) (by decide)]
  simp only [bigSepL_singleton, scM, owns_whole]; try rfl

/-! ## The body's triple, case by case

Each run is stated on ANY whole memrefs: the inputs' at their blocks, the output's as the case needs it, the accumulator
at what the point before left (or at anything, where the case resets it).  The pieces the accumulator (and in case C the
output) ends with are found by running the body; they are the witness. -/

set_option maxHeartbeats 4000000 in
/-- CASE A (k = 0): the accumulator, at anything, is overwritten by the zero block and then by the update; the output's
    buffer is handed back as it was. -/
noncomputable def kernelRun_A (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : condZ i) (hc1 : ¬condL i)
    (x0 : Vec F S1024x1024 .bf16) (x1 : Vec F S1024x1024 .bf16) :
    { LS : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS)) -∗ K ⟨⟩))
          ⊢ wp frame (wpE (defs₀ (F := F)) Variants.none c none) E (cc0__prep_kernel i arg3 harg3 arg4 harg4 arg5 harg5 arg6 harg6) K } := by
  refine ⟨?_, fun xi2 E K => ?run⟩
  case run =>
    simp only [cc0__prep_kernel_eq_skeleton]; unfold cc0__prep_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 4000000 in
/-- CASE B (k = 1, 2): the accumulator, at what the point before left, is replaced by the update; the output's buffer is
    handed back as it was. -/
noncomputable def kernelRun_B (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : ¬condZ i) (hc1 : ¬condL i)
    (x0 : Vec F S1024x1024 .bf16) (x1 : Vec F S1024x1024 .bf16) (xs : Vec F S1024x1024 .f32) :
    { LS : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2
            ∗ owns (c : Thread nD τ) arg6 fullShare xs
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS)) -∗ K ⟨⟩))
          ⊢ wp frame (wpE (defs₀ (F := F)) Variants.none c none) E (cc0__prep_kernel i arg3 harg3 arg4 harg4 arg5 harg5 arg6 harg6) K } := by
  refine ⟨?_, fun xi2 E K => ?run⟩
  case run =>
    simp only [cc0__prep_kernel_eq_skeleton]; unfold cc0__prep_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 4000000 in
/-- CASE C (k = 3): the accumulator, at what the point before left, is replaced by the update, and its truncation is
    stored over the whole output buffer, which may hold anything before. -/
noncomputable def kernelRun_C (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : ¬condZ i) (hc1 : condL i)
    (x0 : Vec F S1024x1024 .bf16) (x1 : Vec F S1024x1024 .bf16) (xs : Vec F S1024x1024 .f32) :
    Σ' (L2 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS)) -∗ K ⟨⟩))
          ⊢ wp frame (wpE (defs₀ (F := F)) Variants.none c none) E (cc0__prep_kernel i arg3 harg3 arg4 harg4 arg5 harg5 arg6 harg6) K } := by
  refine ⟨?_, ?_, fun E K => ?run⟩
  case run =>
    simp only [cc0__prep_kernel_eq_skeleton]; unfold cc0__prep_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

/-! ## What the runs found: the pieces cover, and what they leave

Every store of the body is through the whole-block rectangle at offset (0, 0), so a list of such pieces leaves its LAST
store's payload, and a load through the same rectangle after one store reads that store's payload. -/

/-- The offset of every access of the body. -/
theorem hzero : (![0, 0] : Fin S1024x1024.rank → ℕ) = fun _ => 0 := by
  funext a; fin_cases a <;> rfl

/-- Case A's accumulator pieces (the reset, then the update) cover the block. -/
theorem scover_A (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : condZ i) (hc1 : ¬condL i) (x0 x1 : Vec F S1024x1024 .bf16) (y : S1024x1024.Idx) :
    ∃ pc ∈ (kernelRun_A c i arg3 harg3 arg4 harg4 arg5 harg5 arg6 harg6 hc0 hc1 x0 x1).1, y ∈ pc.1.set :=
  View.cover_of_tiledL (kernelRun_A c i arg3 harg3 arg4 harg4 arg5 harg5 arg6 harg6 hc0 hc1 x0 x1).1 S1024x1024.size (by sl_kernel_rfl) y

/-- Case B's one accumulator piece covers the block. -/
theorem scover_B (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : ¬condZ i) (hc1 : ¬condL i) (x0 x1 : Vec F S1024x1024 .bf16) (xs : Vec F S1024x1024 .f32) (y : S1024x1024.Idx) :
    ∃ pc ∈ (kernelRun_B c i arg3 harg3 arg4 harg4 arg5 harg5 arg6 harg6 hc0 hc1 x0 x1 xs).1, y ∈ pc.1.set :=
  View.cover_of_tiledL (kernelRun_B c i arg3 harg3 arg4 harg4 arg5 harg5 arg6 harg6 hc0 hc1 x0 x1 xs).1 S1024x1024.size (by sl_kernel_rfl) y

/-- Case C's one accumulator piece covers the block, -/
theorem scover_C (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : ¬condZ i) (hc1 : condL i) (x0 x1 : Vec F S1024x1024 .bf16) (xs : Vec F S1024x1024 .f32) (y : S1024x1024.Idx) :
    ∃ pc ∈ (kernelRun_C c i arg3 harg3 arg4 harg4 arg5 harg5 arg6 harg6 hc0 hc1 x0 x1 xs).2.1, y ∈ pc.1.set :=
  View.cover_of_tiledL (kernelRun_C c i arg3 harg3 arg4 harg4 arg5 harg5 arg6 harg6 hc0 hc1 x0 x1 xs).2.1 S1024x1024.size (by sl_kernel_rfl) y

/-- and so does its one output piece. -/
theorem cover_C (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : ¬condZ i) (hc1 : condL i) (x0 x1 : Vec F S1024x1024 .bf16) (xs : Vec F S1024x1024 .f32) (y : S1024x1024.Idx) :
    ∃ pc ∈ (kernelRun_C c i arg3 harg3 arg4 harg4 arg5 harg5 arg6 harg6 hc0 hc1 x0 x1 xs).1, y ∈ pc.1.set :=
  View.cover_of_tiledL (kernelRun_C c i arg3 harg3 arg4 harg4 arg5 harg5 arg6 harg6 hc0 hc1 x0 x1 xs).1 S1024x1024.size (by sl_kernel_rfl) y

set_option maxHeartbeats 1000000 in
/-- CASE A leaves  P(Z, A, B)  in the accumulator: the update's payload, whose accumulator operand is the load that
    reads the zero block just stored. -/
theorem canon_A (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : condZ i) (hc1 : ¬condL i) (x0 x1 : Vec F S1024x1024 .bf16) :
    View.canon (kernelRun_A c i arg3 harg3 arg4 harg4 arg5 harg5 arg6 harg6 hc0 hc1 x0 x1).1 = k0_pay2 (F := F) (k0_pay1 (F := F)) x0 x1 := by
  unfold kernelRun_A; dsimp only; sl_unfold_words
  rw [View.canon_cons_unit_zero (S := S1024x1024) hzero, View.readCov_unit_zero (S := S1024x1024) _ hzero]
  simp only [View.readAt_eq_ld, harg3.read_unread, harg4.read_unread, View.ld_unit_zero (S := S1024x1024) hzero]

set_option maxHeartbeats 1000000 in
/-- CASE B leaves  P(acc, A, B)  in the accumulator. -/
theorem canon_B (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : ¬condZ i) (hc1 : ¬condL i) (x0 x1 : Vec F S1024x1024 .bf16) (xs : Vec F S1024x1024 .f32) :
    View.canon (kernelRun_B c i arg3 harg3 arg4 harg4 arg5 harg5 arg6 harg6 hc0 hc1 x0 x1 xs).1 = k0_pay2 (F := F) xs x0 x1 := by
  unfold kernelRun_B; dsimp only; sl_unfold_words
  rw [View.canon_unit_zero (S := S1024x1024) hzero]
  simp only [View.readAt_eq_ld, harg3.read_unread, harg4.read_unread, harg6.read_unread, View.ld_unit_zero (S := S1024x1024) hzero]

set_option maxHeartbeats 1000000 in
/-- CASE C leaves  P(acc, A, B)  in the accumulator, -/
theorem canon_CS (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : ¬condZ i) (hc1 : condL i) (x0 x1 : Vec F S1024x1024 .bf16) (xs : Vec F S1024x1024 .f32) :
    View.canon (kernelRun_C c i arg3 harg3 arg4 harg4 arg5 harg5 arg6 harg6 hc0 hc1 x0 x1 xs).2.1 = k0_pay2 (F := F) xs x0 x1 := by
  unfold kernelRun_C; dsimp only; sl_unfold_words
  rw [View.canon_unit_zero (S := S1024x1024) hzero]
  simp only [View.readAt_eq_ld, harg3.read_unread, harg4.read_unread, harg6.read_unread, View.ld_unit_zero (S := S1024x1024) hzero]

set_option maxHeartbeats 1000000 in
/-- and its truncation  T(P(acc, A, B))  in the output's buffer: the store's payload is over the load that reads the
    update just stored. -/
theorem canon_CO (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : ¬condZ i) (hc1 : condL i) (x0 x1 : Vec F S1024x1024 .bf16) (xs : Vec F S1024x1024 .f32) :
    View.canon (kernelRun_C c i arg3 harg3 arg4 harg4 arg5 harg5 arg6 harg6 hc0 hc1 x0 x1 xs).1 = k0_pay3 (F := F) (k0_pay2 (F := F) xs x0 x1) := by
  unfold kernelRun_C; dsimp only; sl_unfold_words
  rw [View.canon_unit_zero (S := S1024x1024) hzero, View.readCov_unit_zero (S := S1024x1024) _ hzero]
  simp only [View.readAt_eq_ld, harg3.read_unread, harg4.read_unread, harg6.read_unread, View.ld_unit_zero (S := S1024x1024) hzero]

/-! ## The region at the entry contents `V` -/

section AtV

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE ACCUMULATION: what the accumulator holds after the body at point `n`.  At a point with k = 0 the update of the
    zero block by the point's input blocks; elsewhere the update of what the point before left. -/
def accAt (c : Dev nD) : (n : ℕ) → n < cfg0.N → Vec F S1024x1024 .f32
  | 0, hn => k0_pay2 (F := F) (k0_pay1 (F := F)) (iblk V c 0 ⟨0, hn⟩) (iblk V c 1 ⟨0, hn⟩)
  | n + 1, hn =>
    if (n + 1) % 4 = 0 then
      k0_pay2 (F := F) (k0_pay1 (F := F)) (iblk V c 0 ⟨n + 1, hn⟩) (iblk V c 1 ⟨n + 1, hn⟩)
    else
      k0_pay2 (F := F) (accAt c n (Nat.lt_of_succ_lt hn)) (iblk V c 0 ⟨n + 1, hn⟩) (iblk V c 1 ⟨n + 1, hn⟩)

/-- At a point with k = 0 the accumulator restarts from the zero block. -/
theorem acc_first (c : Dev nD) (t : Fin cfg0.N) (h : t.val % 4 = 0) :
    accAt V c t.val t.isLt = k0_pay2 (F := F) (k0_pay1 (F := F)) (iblk V c 0 t) (iblk V c 1 t) := by
  obtain ⟨n, hn⟩ := t
  cases n with
  | zero => rfl
  | succ n => exact if_pos h

/-- At any other point it updates what the point before left. -/
theorem acc_next (c : Dev nD) (t : Fin cfg0.N) (h : ¬ t.val % 4 = 0) :
    accAt V c t.val t.isLt = k0_pay2 (F := F) (accAt V c (t.val - 1) (Nat.lt_of_le_of_lt (Nat.sub_le _ _) t.isLt)) (iblk V c 0 t) (iblk V c 1 t) := by
  obtain ⟨n, hn⟩ := t
  cases n with
  | zero => exact absurd (Nat.zero_mod 4) h
  | succ n => exact if_neg h

/-- The region invariant before position `n`: before the first point what the launch hands over (the accumulator at
    anything); afterwards the accumulator at what the point before left, the other scoped buffers unopened, the
    generator register at some state. -/
def PhiS (c : Dev nD) : (n : ℕ) → n ≤ cfg0.N → sProp 𝕄
  | 0, _ => Pipeline.ΦA spec0 c
  | n + 1, hn => iprop(iprop(owns (c : Thread nD τ) scM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ others (F := F) c) ∗ (∃ r, prngReg c r)) := by
  cases n with
  | zero => exact absurd rfl hz
  | succ n => rfl

/-! ## The proof data -/

/-- The proof data of the pipeline on core `c`: the arrays as the region finds them; after the body each input's
    buffer at its block, the output's at the truncation of the accumulator (consulted only at the points with k = 3,
    the others being idle for it); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (F := F) (accAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem q_eq (c : Dev nD) (w : Fin cfg0.W) : (dat V c).q w = fullShare := by
  dsimp only [dat]
theorem owed_eq (c : Dev nD) (t : Fin (cfg0.N + 1)) : (dat V c).owed t = 0 := by
  dsimp only [dat]
theorem recorded_eq (c : Dev nD) (t : Fin (cfg0.N + 1)) : (dat V c).recorded t = Set.univ := rfl

theorem Phi_castSucc (c : Dev nD) (t : Fin cfg0.N) :
    (dat V c).Φ t.castSucc = PhiS V c t.val (Nat.le_of_lt t.isLt) := by
  dsimp only [dat]; simp only [Fin.coe_castSucc]

theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_out (c : Dev nD) (t : Fin cfg0.N) : (dat V c).after 2 t = k0_pay3 (F := F) (accAt V c t.val t.isLt) := by dsimp only [dat]

/-- At a point with k = 3 the output's block is the truncation of the accumulator. -/
theorem out_last (c : Dev nD) (t : Fin cfg0.N) (h : t.val % 4 = 3) :
    (dat V c).after 2 t = k0_pay3 (F := F) (accAt V c t.val t.isLt) := after_out V c t

/-- Each input's current staging buffer holds its block at every point: the window is uncut, never idle, and the body
    leaves the block in place. -/
theorem before_in0 (c : Dev nD) (t : Fin cfg0.N) (d) : (dat V c).before 0 t d = iblk V c 0 t :=
  ((dat V c).before_in_eq_fetched 0 rfl (fun _ => rfl) (fun _ _ _ => rfl)
      (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dat V c).before 1 t d = iblk V c 1 t :=
  ((dat V c).before_in_eq_fetched 1 rfl (fun _ => rfl) (fun _ _ _ => rfl)
      (fun t => by rw [after_in1]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

/-- The inputs are live everywhere: the body leaves each at its block. -/
theorem leaves_in0 (c : Dev nD) (t : Fin cfg0.N) :
    (dat V c).leavesExact 0 t = owns (c : Thread nD τ) (ms0 t) fullShare (iblk V c 0 t) := by
  unfold Dat.leavesExact; rw [live0 t, after_in0]
theorem leaves_in1 (c : Dev nD) (t : Fin cfg0.N) :
    (dat V c).leavesExact 1 t = owns (c : Thread nD τ) (ms1 t) fullShare (iblk V c 1 t) := by
  unfold Dat.leavesExact; rw [live1 t, after_in1]
/-- The output is live at k = 3: the body leaves it at the truncation of the accumulator. -/
theorem leaves_out (c : Dev nD) (t : Fin cfg0.N) (h : condL (grid0.coords t)) :
    (dat V c).leavesExact 2 t = owns (c : Thread nD τ) (ms2 t) fullShare (k0_pay3 (F := F) (accAt V c t.val t.isLt)) := by
  unfold Dat.leavesExact; rw [live2 t h, after_out]

set_option maxHeartbeats 4800000 in
/-- The body at any point.  The inputs' memrefs hold their blocks; the closed forms say which case the point is in.
    k = 0: the invariant hands over the accumulator at anything (at the first point the launch's, later what the point
    before left, forgotten), the run resets and updates it, and the output's buffer passes through untouched.
    k = 1, 2: the accumulator comes at what the point before left and goes back updated.  k = 3: the same, and the
    output's buffer, at anything, goes back at the truncation of the updated accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1]
  rw [show (dat V c).owesAt () t.succ = (dat V c).owesAt () t.castSucc from rfl]
  rw [show (dat V c).Φ t.succ = PhiS V c (t.val + 1) t.isLt from rfl, PhiS_succ]
  rw [leaves_in0, leaves_in1]
  have hN : t.val < 64 := lt_of_lt_of_eq t.isLt (show cfg0.N = 64 from N_0)
  by_cases h0 : t.val % 4 = 0
  · have hZ : condZ (grid0.coords t) := (hcondZ t).mpr h0
    have hL : ¬condL (grid0.coords t) := fun h => by have := (hcondL t).mp h; omega
    rw [Dat.leavesExact_idle (dat V c) 2 t (idle2 t hL) (noFlush2 t hL)]
    rw [acc_first V c t h0]
    by_cases hz : t.val = 0
    · rw [Phi_castSucc V c t, PhiS_zero V c _ _ hz, PhiA_eq]
      iintro ⟨⟨⟨HS, HR⟩, Hg⟩, Ho, ⟨%d0, H0⟩, ⟨%d1, H1⟩, ⟨%d2, H2⟩⟩
      iapply ((kernelRun_A c (grid0.coords t) _ _ _ _ _ _ _ _ hZ hL (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro
            exact (View.read_writes_eq_canon _ _ _ (scover_A c _ _ _ _ _ _ _ _ _ _ _ _ _)).trans (canon_A c _ _ _ _ _ _ _ _ _ _ _ _ _)
          iexact HR
        iexact Hg
      isplitl [Ho]; · iexact Ho
      isplitl [H0]; · iexact H0
      isplitl [H1]; · iexact H1
      iexists _; iexact H2
    · rw [Phi_castSucc V c t, PhiS_pos V c _ _ hz]
      iintro ⟨⟨⟨HS, HR⟩, Hg⟩, Ho, ⟨%d0, H0⟩, ⟨%d1, H1⟩, ⟨%d2, H2⟩⟩
      iapply ((kernelRun_A c (grid0.coords t) _ _ _ _ _ _ _ _ hZ hL (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro
            exact (View.read_writes_eq_canon _ _ _ (scover_A c _ _ _ _ _ _ _ _ _ _ _ _ _)).trans (canon_A c _ _ _ _ _ _ _ _ _ _ _ _ _)
          iexact HR
        iexact Hg
      isplitl [Ho]; · iexact Ho
      isplitl [H0]; · iexact H0
      isplitl [H1]; · iexact H1
      iexists _; iexact H2
  · have hZ : ¬condZ (grid0.coords t) := fun h => h0 ((hcondZ t).mp h)
    have hz : t.val ≠ 0 := fun h => h0 (by rw [h])
    rw [acc_next V c t h0]
    rw [Phi_castSucc V c t, PhiS_pos V c _ _ hz]
    by_cases h1 : t.val % 4 = 3
    · have hL : condL (grid0.coords t) := (hcondL t).mpr h1
      rw [leaves_out V c t hL, acc_next V c t h0]
      iintro ⟨⟨⟨HS, HR⟩, Hg⟩, Ho, ⟨%d0, H0⟩, ⟨%d1, H1⟩, ⟨%d2, H2⟩⟩
      iapply ((kernelRun_C c (grid0.coords t) _ _ _ _ _ _ _ _ hZ hL (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro
            exact (View.read_writes_eq_canon _ _ _ (scover_C c _ _ _ _ _ _ _ _ _ _ _ _ _ _)).trans (canon_CS c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro
      exact (View.read_writes_eq_canon _ _ _ (cover_C c _ _ _ _ _ _ _ _ _ _ _ _ _ _)).trans (canon_CO c _ _ _ _ _ _ _ _ _ _ _ _ _ _)
    · have hL : ¬condL (grid0.coords t) := fun h => h1 ((hcondL t).mp h)
      rw [Dat.leavesExact_idle (dat V c) 2 t (idle2 t hL) (noFlush2 t hL)]
      iintro ⟨⟨⟨HS, HR⟩, Hg⟩, Ho, ⟨%d0, H0⟩, ⟨%d1, H1⟩, ⟨%d2, H2⟩⟩
      iapply ((kernelRun_B c (grid0.coords t) _ _ _ _ _ _ _ _ hZ hL (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro
            exact (View.read_writes_eq_canon _ _ _ (scover_B c _ _ _ _ _ _ _ _ _ _ _ _ _ _)).trans (canon_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives it back: the accumulator's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg0.N) ⊢ Pipeline.ΦA spec0 c :=
  Phi_out V c _ (by rw [Fin.val_last]; have : cfg0.N = 64 := N_0; omega)

end AtV

end Cert.KernelIdeal.R0

end
-- ==== Proof.KI.R1.lean ====
/-
  REGION 1 of the program (custom_call 1, the main matmul with bias), its body half, at the entry contents `V`.

  The grid is 8 x 2 x 8; point t has coordinates (i, j, k) = (t / 16, t / 8 % 2, t % 8), and k is the
  contraction axis. The kernel keeps an ACCUMULATOR in a scratch buffer across the k axis:

    * at k = 0 it is reset to zero and then updated:   acc(t) = pay2 x(t) w(t) 0
    * at k > 0 it is updated from the point before:    acc(t) = pay2 x(t) w(t) acc(t - 1)
      (pay2 x w a = a + trunc(x) · wᵀ: the payload `k1_pay2`)
    * at k = 7 the output block is stored:             out(t) = pay3 acc(t) bias(t)
      (pay3 a b = a + broadcast b: the payload `k1_pay3`), and only there is it written back.

  So there are three control cases: A (k = 0), B (0 < k < 7), C (k = 7). The output window is idle in A and B.
  The three inputs keep their blocks. The invariant before point n + 1 holds the accumulator scratch at acc(n);
  before point 0 it is the launch's (every scoped buffer at anything).
-/
import proofs.«423795_j79723182949081_2_alg».proof.Proof.Gen.KernelIdeal.Launch
import proofs.«423795_j79723182949081_2_alg».proof.Proof.Gen.KernelIdeal.Skeleton
import proofs.«423795_j79723182949081_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- The first conditional's condition (k = 0), as the body's scalar chain spells it. -/
abbrev condA (i : grid1.Coords) : Prop :=
  (Scalar.cmpi .ne (Scalar.extui (Scalar.cmpi .eq (BitVec.ofNat 32 (i 2).val) 0#32)) 0#32) = 1#1

/-- It holds exactly at the points with k = 0. -/
theorem condA_iff : ∀ t : Fin cfg1.N, condA (grid1.coords t) ↔ t.val % 8 = 0 :=
  (by decide +kernel : ∀ t : Fin grid1.N, condA (grid1.coords t) ↔ t.val % 8 = 0)

/-- The second conditional's condition (k = 7). -/
abbrev condC (i : grid1.Coords) : Prop := k1_cond2 i = 1#1

/-- It holds exactly at the points with k = 7. -/
theorem condC_iff : ∀ t : Fin cfg1.N, condC (grid1.coords t) ↔ t.val % 8 = 7 :=
  (by decide +kernel : ∀ t : Fin grid1.N, condC (grid1.coords t) ↔ t.val % 8 = 7)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Where k ≠ 7 the output window is idle, -/
theorem idle3_of_notC : ∀ t : Fin cfg1.N, ¬condC (grid1.coords t) → cfg1.idle 3 (grid1.coords t) = true := by decide +kernel
/-- and its block is not written back there; -/
theorem noFlush3_of_notC : ∀ t : Fin cfg1.N, ¬condC (grid1.coords t) → (cfg1.win 3).flush t = false := by decide +kernel
/-- where k = 7 it is live. -/
theorem live3_of_C : ∀ t : Fin cfg1.N, condC (grid1.coords t) → cfg1.idle 3 (grid1.coords t) = false := by decide +kernel

/-! ## The memrefs the body is called with -/

abbrev ms0 (t : Fin cfg1.N) : Memref sig .tc .vmem S1024x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x2048 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev accM : Memref sig .tc .vmem S1024x2048 .f32 := Memref.whole cc1_scratch0
/-- The view through which the accumulator's contents are stated. -/
abbrev accV : View sig .tc .vmem S1024x2048 .f32 := accM.view
/-- One staging buffer of the output window, through which its contents are stated (the choice does not matter). -/
abbrev outV : View sig .tc .vmem S1024x2048 .f32 := (Memref.whole cc1_stg3_0 : Memref sig .tc .vmem S1024x2048 .f32).view

/-- The other scoped buffers of the core, each whole at some contents: region 0's staging buffers and scratch. -/
abbrev others (c : Dev nD) (X : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ X)

/-- What the launch hands the region: the other scoped buffers, the accumulator at some contents, the generator
    register at some state. -/
theorem PhiA_eq (c : Dev nD) :
    (Pipeline.ΦA spec1 c : sProp 𝕄)
      = iprop(others c (iprop(∃ d, owns (c : Thread nD τ) accM fullShare d)) ∗ (∃ r, prngReg c r)) := by
  unfold Pipeline.ΦA; rw [scopedRest1_eq]; simp only [accM, owns_whole]; try rfl

/-! ## The body's run, case by case

Each run is stated on any whole memrefs: the inputs' at their contents; the output's at contents handed back
untouched where the case stores nothing into it, at anything where it does; the accumulator's at anything where the
case resets it first, at what the point before left where it does not. The lists of pieces the stores leave in the
accumulator and in the output (last first) are found by running the body. -/

set_option maxHeartbeats 4000000 in
/-- Case A (k = 0): the accumulator is reset, then updated; nothing is stored into the output. -/
noncomputable def runA (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : condA i) (hC : ¬condC i)
    (x0 : Vec F S1024x512 .f32) (x1 : Vec F S2048x512 .bf16) (x2 : Vec F S1x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__main_kernel i arg3 harg3 arg4 harg4 arg5 harg5 arg6 harg6 arg7 harg7) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2
    obtain rfl := harg6.eq_unread hf3
    sl_exec (disch := first | exact hA | exact hC)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- Case B (0 < k < 7): the accumulator is updated from what the point before left; nothing is stored into the output. -/
noncomputable def runB (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : ¬condC i)
    (x0 : Vec F S1024x512 .f32) (x1 : Vec F S2048x512 .bf16) (x2 : Vec F S1x2048 .f32) (xs : Vec F S1024x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__main_kernel i arg3 harg3 arg4 harg4 arg5 harg5 arg6 harg6 arg7 harg7) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hfs
    sl_exec (disch := first | exact hA | exact hC)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- Case C (k = 7): the accumulator is updated from what the point before left, then the output block is stored. -/
noncomputable def runC (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : condC i)
    (x0 : Vec F S1024x512 .f32) (x1 : Vec F S2048x512 .bf16) (x2 : Vec F S1x2048 .f32) (xs : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__main_kernel i arg3 harg3 arg4 harg4 arg5 harg5 arg6 harg6 arg7 harg7) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hA | exact hC)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-! ## What each case leaves in the accumulator and in the output -/

/-- Case A's stores into the accumulator tile it, so they cover it. -/
theorem coverA (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : condA i) (hC : ¬condC i)
    (x0 : Vec F S1024x512 .f32) (x1 : Vec F S2048x512 .bf16) (x2 : Vec F S1x2048 .f32) (y : S1024x2048.Idx) :
    ∃ pc ∈ (runA c i arg3 harg3 arg4 harg4 arg5 harg5 arg6 harg6 arg7 harg7 hA hC x0 x1 x2).2.1, y ∈ pc.1.set :=
  View.cover_of_tiledL (runA c i arg3 harg3 arg4 harg4 arg5 harg5 arg6 harg6 arg7 harg7 hA hC x0 x1 x2).2.1 S1024x2048.size (by sl_kernel_rfl) y

/-- What case A leaves in the accumulator: its pieces read back. -/
def accA (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : condA i) (hC : ¬condC i)
    (x0 : Vec F S1024x512 .f32) (x1 : Vec F S2048x512 .bf16) (x2 : Vec F S1x2048 .f32) : Vec F S1024x2048 .f32 :=
  accV.read (Elt F) (accV.writes (Elt F) accV.junk (runA c i arg3 harg3 arg4 harg4 arg5 harg5 arg6 harg6 arg7 harg7 hA hC x0 x1 x2).2.1)

/-- Case B's store into the accumulator covers it. -/
theorem coverB (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : ¬condC i)
    (x0 : Vec F S1024x512 .f32) (x1 : Vec F S2048x512 .bf16) (x2 : Vec F S1x2048 .f32) (xs : Vec F S1024x2048 .f32) (y : S1024x2048.Idx) :
    ∃ pc ∈ (runB c i arg3 harg3 arg4 harg4 arg5 harg5 arg6 harg6 arg7 harg7 hA hC x0 x1 x2 xs).2.1, y ∈ pc.1.set :=
  View.cover_of_tiledL (runB c i arg3 harg3 arg4 harg4 arg5 harg5 arg6 harg6 arg7 harg7 hA hC x0 x1 x2 xs).2.1 S1024x2048.size (by sl_kernel_rfl) y

/-- What case B leaves in the accumulator. -/
def accB (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : ¬condC i)
    (x0 : Vec F S1024x512 .f32) (x1 : Vec F S2048x512 .bf16) (x2 : Vec F S1x2048 .f32) (xs : Vec F S1024x2048 .f32) : Vec F S1024x2048 .f32 :=
  accV.read (Elt F) (accV.writes (Elt F) accV.junk (runB c i arg3 harg3 arg4 harg4 arg5 harg5 arg6 harg6 arg7 harg7 hA hC x0 x1 x2 xs).2.1)

/-- Case C's store into the accumulator covers it, -/
theorem coverC (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : condC i)
    (x0 : Vec F S1024x512 .f32) (x1 : Vec F S2048x512 .bf16) (x2 : Vec F S1x2048 .f32) (xs : Vec F S1024x2048 .f32) (y : S1024x2048.Idx) :
    ∃ pc ∈ (runC c i arg3 harg3 arg4 harg4 arg5 harg5 arg6 harg6 arg7 harg7 hA hC x0 x1 x2 xs).2.1, y ∈ pc.1.set :=
  View.cover_of_tiledL (runC c i arg3 harg3 arg4 harg4 arg5 harg5 arg6 harg6 arg7 harg7 hA hC x0 x1 x2 xs).2.1 S1024x2048.size (by sl_kernel_rfl) y

/-- and its store into the output covers the output's block. -/
theorem coverOutC (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : condC i)
    (x0 : Vec F S1024x512 .f32) (x1 : Vec F S2048x512 .bf16) (x2 : Vec F S1x2048 .f32) (xs : Vec F S1024x2048 .f32) (y : S1024x2048.Idx) :
    ∃ pc ∈ (runC c i arg3 harg3 arg4 harg4 arg5 harg5 arg6 harg6 arg7 harg7 hA hC x0 x1 x2 xs).1, y ∈ pc.1.set :=
  View.cover_of_tiledL (runC c i arg3 harg3 arg4 harg4 arg5 harg5 arg6 harg6 arg7 harg7 hA hC x0 x1 x2 xs).1 S1024x2048.size (by sl_kernel_rfl) y

/-- What case C leaves in the accumulator, -/
def accC (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : condC i)
    (x0 : Vec F S1024x512 .f32) (x1 : Vec F S2048x512 .bf16) (x2 : Vec F S1x2048 .f32) (xs : Vec F S1024x2048 .f32) : Vec F S1024x2048 .f32 :=
  accV.read (Elt F) (accV.writes (Elt F) accV.junk (runC c i arg3 harg3 arg4 harg4 arg5 harg5 arg6 harg6 arg7 harg7 hA hC x0 x1 x2 xs).2.1)

/-- and in the output's staging buffer. -/
def outC (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : condC i)
    (x0 : Vec F S1024x512 .f32) (x1 : Vec F S2048x512 .bf16) (x2 : Vec F S1x2048 .f32) (xs : Vec F S1024x2048 .f32) : Vec F S1024x2048 .f32 :=
  outV.read (Elt F) (outV.writes (Elt F) outV.junk (runC c i arg3 harg3 arg4 harg4 arg5 harg5 arg6 harg6 arg7 harg7 hA hC x0 x1 x2 xs).1)

/-! ## The cases from the closed forms -/

theorem isA_of {t : Fin cfg1.N} (h : t.val % 8 = 0) : condA (grid1.coords t) := (condA_iff t).mpr h
theorem notA_of {t : Fin cfg1.N} (h : ¬t.val % 8 = 0) : ¬condA (grid1.coords t) := fun ha => h ((condA_iff t).mp ha)
theorem isC_of {t : Fin cfg1.N} (h : t.val % 8 = 7) : condC (grid1.coords t) := (condC_iff t).mpr h
theorem notC_of {t : Fin cfg1.N} (h : ¬t.val % 8 = 7) : ¬condC (grid1.coords t) := fun hc => h ((condC_iff t).mp hc)
theorem notC_of_A {t : Fin cfg1.N} (h : t.val % 8 = 0) : ¬condC (grid1.coords t) :=
  fun hc => by have h7 := (condC_iff t).mp hc; omega
theorem notA_of_C {t : Fin cfg1.N} (h : t.val % 8 = 7) : ¬condA (grid1.coords t) :=
  fun ha => by have h0 := (condA_iff t).mp ha; omega

/-- The position before a point's is below the grid's size. -/
theorem pred_lt (t : Fin cfg1.N) : t.val - 1 < cfg1.N := Nat.lt_of_le_of_lt (Nat.sub_le _ _) t.isLt

/-! ## What the pieces read back as

Every access of the body is through the whole-block rectangle at offset (0, 0) of its buffer. So a list of such
stores leaves its LAST store's payload, a load through that rectangle after a store reads the store's payload, and a
load of an input reads the input's block. -/

theorem hz_acc : (![0, 0] : Fin S1024x2048.rank → ℕ) = fun _ => 0 := by funext a; fin_cases a <;> rfl
theorem hz_x : (![0, 0] : Fin S1024x512.rank → ℕ) = fun _ => 0 := by funext a; fin_cases a <;> rfl
theorem hz_w : (![0, 0] : Fin S2048x512.rank → ℕ) = fun _ => 0 := by funext a; fin_cases a <;> rfl
theorem hz_b : (![0, 0] : Fin S1x2048.rank → ℕ) = fun _ => 0 := by funext a; fin_cases a <;> rfl

set_option maxHeartbeats 1000000 in
/-- Case A leaves  pay2 x w 0  in the accumulator: the update's payload, whose accumulator operand is the load
    that reads the zero block just stored. -/
theorem canonA (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : condA i) (hC : ¬condC i)
    (x0 : Vec F S1024x512 .f32) (x1 : Vec F S2048x512 .bf16) (x2 : Vec F S1x2048 .f32) :
    View.canon (runA c i arg3 harg3 arg4 harg4 arg5 harg5 arg6 harg6 arg7 harg7 hA hC x0 x1 x2).2.1 = k1_pay2 (F := F) x0 x1 (k1_pay1 (F := F)) := by
  unfold runA; dsimp only; sl_unfold_words
  rw [View.canon_cons_unit_zero (S := S1024x2048) hz_acc, View.readCov_unit_zero (S := S1024x2048) _ hz_acc]
  simp only [View.readAt_eq_ld, harg3.read_unread, harg4.read_unread, View.ld_unit_zero (S := S1024x512) hz_x, View.ld_unit_zero (S := S2048x512) hz_w]

set_option maxHeartbeats 1000000 in
/-- Case B leaves  pay2 x w acc  in the accumulator. -/
theorem canonB (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : ¬condC i)
    (x0 : Vec F S1024x512 .f32) (x1 : Vec F S2048x512 .bf16) (x2 : Vec F S1x2048 .f32) (xs : Vec F S1024x2048 .f32) :
    View.canon (runB c i arg3 harg3 arg4 harg4 arg5 harg5 arg6 harg6 arg7 harg7 hA hC x0 x1 x2 xs).2.1 = k1_pay2 (F := F) x0 x1 xs := by
  unfold runB; dsimp only; sl_unfold_words
  rw [View.canon_unit_zero (S := S1024x2048) hz_acc]
  simp only [View.readAt_eq_ld, harg3.read_unread, harg4.read_unread, harg7.read_unread, View.ld_unit_zero (S := S1024x512) hz_x, View.ld_unit_zero (S := S2048x512) hz_w, View.ld_unit_zero (S := S1024x2048) hz_acc]

set_option maxHeartbeats 1000000 in
/-- Case C leaves  pay2 x w acc  in the accumulator, -/
theorem canonC (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : condC i)
    (x0 : Vec F S1024x512 .f32) (x1 : Vec F S2048x512 .bf16) (x2 : Vec F S1x2048 .f32) (xs : Vec F S1024x2048 .f32) :
    View.canon (runC c i arg3 harg3 arg4 harg4 arg5 harg5 arg6 harg6 arg7 harg7 hA hC x0 x1 x2 xs).2.1 = k1_pay2 (F := F) x0 x1 xs := by
  unfold runC; dsimp only; sl_unfold_words
  rw [View.canon_unit_zero (S := S1024x2048) hz_acc]
  simp only [View.readAt_eq_ld, harg3.read_unread, harg4.read_unread, harg7.read_unread, View.ld_unit_zero (S := S1024x512) hz_x, View.ld_unit_zero (S := S2048x512) hz_w, View.ld_unit_zero (S := S1024x2048) hz_acc]

set_option maxHeartbeats 1000000 in
/-- and  pay3 (pay2 x w acc) bias  in the output's buffer: the store's payload is over the load that reads the
    update just stored, and the bias block. -/
theorem canonOutC (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : condC i)
    (x0 : Vec F S1024x512 .f32) (x1 : Vec F S2048x512 .bf16) (x2 : Vec F S1x2048 .f32) (xs : Vec F S1024x2048 .f32) :
    View.canon (runC c i arg3 harg3 arg4 harg4 arg5 harg5 arg6 harg6 arg7 harg7 hA hC x0 x1 x2 xs).1 = k1_pay3 (F := F) (k1_pay2 (F := F) x0 x1 xs) x2 := by
  unfold runC; dsimp only; sl_unfold_words
  rw [View.canon_unit_zero (S := S1024x2048) hz_acc, View.readCov_unit_zero (S := S1024x2048) _ hz_acc]
  simp only [View.readAt_eq_ld, harg3.read_unread, harg4.read_unread, harg5.read_unread, harg7.read_unread, View.ld_unit_zero (S := S1024x512) hz_x, View.ld_unit_zero (S := S2048x512) hz_w, View.ld_unit_zero (S := S1x2048) hz_b, View.ld_unit_zero (S := S1024x2048) hz_acc]

/-- So what each case leaves, read back, is its payload. -/
theorem accA_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : condA i) (hC : ¬condC i)
    (x0 : Vec F S1024x512 .f32) (x1 : Vec F S2048x512 .bf16) (x2 : Vec F S1x2048 .f32) :
    accA c i arg3 harg3 arg4 harg4 arg5 harg5 arg6 harg6 arg7 harg7 hA hC x0 x1 x2 = k1_pay2 (F := F) x0 x1 (k1_pay1 (F := F)) := by
  unfold accA; rw [View.read_writes_junk_eq_canon]; exact canonA c i arg3 harg3 arg4 harg4 arg5 harg5 arg6 harg6 arg7 harg7 hA hC x0 x1 x2

theorem accB_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : ¬condC i)
    (x0 : Vec F S1024x512 .f32) (x1 : Vec F S2048x512 .bf16) (x2 : Vec F S1x2048 .f32) (xs : Vec F S1024x2048 .f32) :
    accB c i arg3 harg3 arg4 harg4 arg5 harg5 arg6 harg6 arg7 harg7 hA hC x0 x1 x2 xs = k1_pay2 (F := F) x0 x1 xs := by
  unfold accB; rw [View.read_writes_junk_eq_canon]; exact canonB c i arg3 harg3 arg4 harg4 arg5 harg5 arg6 harg6 arg7 harg7 hA hC x0 x1 x2 xs

theorem accC_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : condC i)
    (x0 : Vec F S1024x512 .f32) (x1 : Vec F S2048x512 .bf16) (x2 : Vec F S1x2048 .f32) (xs : Vec F S1024x2048 .f32) :
    accC c i arg3 harg3 arg4 harg4 arg5 harg5 arg6 harg6 arg7 harg7 hA hC x0 x1 x2 xs = k1_pay2 (F := F) x0 x1 xs := by
  unfold accC; rw [View.read_writes_junk_eq_canon]; exact canonC c i arg3 harg3 arg4 harg4 arg5 harg5 arg6 harg6 arg7 harg7 hA hC x0 x1 x2 xs

theorem outC_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hA : ¬condA i) (hC : condC i)
    (x0 : Vec F S1024x512 .f32) (x1 : Vec F S2048x512 .bf16) (x2 : Vec F S1x2048 .f32) (xs : Vec F S1024x2048 .f32) :
    outC c i arg3 harg3 arg4 harg4 arg5 harg5 arg6 harg6 arg7 harg7 hA hC x0 x1 x2 xs = k1_pay3 (F := F) (k1_pay2 (F := F) x0 x1 xs) x2 := by
  unfold outC; rw [View.read_writes_junk_eq_canon]; exact canonOutC c i arg3 harg3 arg4 harg4 arg5 harg5 arg6 harg6 arg7 harg7 hA hC x0 x1 x2 xs

section Region
-- the TensorCore's buffer contents when the region is entered
variable (V : (c : Dev nD) → (b : Ref sig .tc) → Buf (Elt F) ((c : Thread nD τ).loc b))

/-! ## The windows' blocks -/

/-- A window's block at a point, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds the input's block at every point, fetched there or not (where it is
    not fetched the block index has not moved), for any proof data over the entry contents whose body leaves the
    block in place: x, -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t := by
  have hkeep : ∀ t, (cfg1.win 0).cut (cfg1.grid.coords t) (dat.after 0 t) = dat.blockOf 0 t := fun t => by
    rw [hafter]; unfold Dat.blockOf iblk; rw [hA]; try rfl
  rw [dat.before_in_eq_fetched 0 rfl (fun _ => rfl) (fun _ _ _ => rfl) hkeep t d]
  unfold Dat.fetched Dat.blockOf iblk; rw [hA]; try rfl

/-- w, -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t := by
  have hkeep : ∀ t, (cfg1.win 1).cut (cfg1.grid.coords t) (dat.after 1 t) = dat.blockOf 1 t := fun t => by
    rw [hafter]; unfold Dat.blockOf iblk; rw [hA]; try rfl
  rw [dat.before_in_eq_fetched 1 rfl (fun _ => rfl) (fun _ _ _ => rfl) hkeep t d]
  unfold Dat.fetched Dat.blockOf iblk; rw [hA]; try rfl

/-- and the bias, which is fetched only where k = 0. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t := by
  have hkeep : ∀ t, (cfg1.win 2).cut (cfg1.grid.coords t) (dat.after 2 t) = dat.blockOf 2 t := fun t => by
    rw [hafter]; unfold Dat.blockOf iblk; rw [hA]; try rfl
  rw [dat.before_in_eq_fetched 2 rfl (fun _ => rfl) (fun _ _ _ => rfl) hkeep t d]
  unfold Dat.fetched Dat.blockOf iblk; rw [hA]; try rfl

/-! ## The accumulator point by point -/

/-- One point's step of the accumulator: from the point's blocks and, where k > 0, from what the point before
    left (the last argument; where k = 0 the accumulator is reset and that argument is not read). -/
def accStep (c : Dev nD) (t : Fin cfg1.N) (prev : Vec F S1024x2048 .f32) : Vec F S1024x2048 .f32 :=
  if h0 : t.val % 8 = 0 then
    accA c (grid1.coords t) (ms0 t) (hs0 t) (ms1 t) (hs1 t) (ms2 t) (hs2 t) (ms3 t) (hs3 t) accM (Memref.isWhole_whole _) (isA_of h0) (notC_of_A h0) (iblk V c 0 t) (iblk V c 1 t) (iblk V c 2 t)
  else if h7 : t.val % 8 = 7 then
    accC c (grid1.coords t) (ms0 t) (hs0 t) (ms1 t) (hs1 t) (ms2 t) (hs2 t) (ms3 t) (hs3 t) accM (Memref.isWhole_whole _) (notA_of h0) (isC_of h7) (iblk V c 0 t) (iblk V c 1 t) (iblk V c 2 t) prev
  else
    accB c (grid1.coords t) (ms0 t) (hs0 t) (ms1 t) (hs1 t) (ms2 t) (hs2 t) (ms3 t) (hs3 t) accM (Memref.isWhole_whole _) (notA_of h0) (notC_of h7) (iblk V c 0 t) (iblk V c 1 t) (iblk V c 2 t) prev

/-- THE ACCUMULATION: what the accumulator holds after the body at each position. At position 0 (k = 0) nothing is
    carried in; the zero vector stands where the step takes an unread argument. -/
def accAt (c : Dev nD) : (n : ℕ) → n < cfg1.N → Vec F S1024x2048 .f32
  | 0, hn => accStep V c ⟨0, hn⟩ (k1_pay1 (F := F))
  | n + 1, hn => accStep V c ⟨n + 1, hn⟩ (accAt c n (Nat.lt_of_succ_lt hn))

/-- The recursion's two equations: at the first position, -/
theorem accAt_first (c : Dev nD) (t : Fin cfg1.N) (hz : t.val = 0) :
    accAt V c t.val t.isLt = accStep V c t (k1_pay1 (F := F)) := by
  obtain ⟨n, hn⟩ := t
  cases n with
  | zero => rfl
  | succ n => exact absurd hz (Nat.succ_ne_zero n)

/-- and at a later one. -/
theorem accAt_step (c : Dev nD) (t : Fin cfg1.N) (hz : t.val ≠ 0) :
    accAt V c t.val t.isLt = accStep V c t (accAt V c (t.val - 1) (pred_lt t)) := by
  obtain ⟨n, hn⟩ := t
  cases n with
  | zero => exact absurd rfl hz
  | succ n => rfl

/-- The step where k = 0, -/
theorem accStep_A (c : Dev nD) (t : Fin cfg1.N) (prev : Vec F S1024x2048 .f32) (h0 : t.val % 8 = 0) :
    accStep V c t prev = accA c (grid1.coords t) (ms0 t) (hs0 t) (ms1 t) (hs1 t) (ms2 t) (hs2 t) (ms3 t) (hs3 t) accM (Memref.isWhole_whole _) (isA_of h0) (notC_of_A h0) (iblk V c 0 t) (iblk V c 1 t) (iblk V c 2 t) := by
  unfold accStep; exact dif_pos h0

/-- where 0 < k < 7, -/
theorem accStep_B (c : Dev nD) (t : Fin cfg1.N) (prev : Vec F S1024x2048 .f32) (h0 : ¬t.val % 8 = 0) (h7 : ¬t.val % 8 = 7) :
    accStep V c t prev = accB c (grid1.coords t) (ms0 t) (hs0 t) (ms1 t) (hs1 t) (ms2 t) (hs2 t) (ms3 t) (hs3 t) accM (Memref.isWhole_whole _) (notA_of h0) (notC_of h7) (iblk V c 0 t) (iblk V c 1 t) (iblk V c 2 t) prev := by
  unfold accStep; exact (dif_neg h0).trans (dif_neg h7)

/-- and where k = 7. -/
theorem accStep_C (c : Dev nD) (t : Fin cfg1.N) (prev : Vec F S1024x2048 .f32) (h0 : ¬t.val % 8 = 0) (h7 : t.val % 8 = 7) :
    accStep V c t prev = accC c (grid1.coords t) (ms0 t) (hs0 t) (ms1 t) (hs1 t) (ms2 t) (hs2 t) (ms3 t) (hs3 t) accM (Memref.isWhole_whole _) (notA_of h0) (isC_of h7) (iblk V c 0 t) (iblk V c 1 t) (iblk V c 2 t) prev := by
  unfold accStep; exact (dif_neg h0).trans (dif_pos h7)

/-- Where k = 0: case A's contents. -/
theorem accAt_A (c : Dev nD) (t : Fin cfg1.N) (h0 : t.val % 8 = 0) :
    accAt V c t.val t.isLt = accA c (grid1.coords t) (ms0 t) (hs0 t) (ms1 t) (hs1 t) (ms2 t) (hs2 t) (ms3 t) (hs3 t) accM (Memref.isWhole_whole _) (isA_of h0) (notC_of_A h0) (iblk V c 0 t) (iblk V c 1 t) (iblk V c 2 t) := by
  by_cases hz : t.val = 0
  · rw [accAt_first V c t hz]; exact accStep_A V c t _ h0
  · rw [accAt_step V c t hz]; exact accStep_A V c t _ h0

/-- Where 0 < k < 7: case B's contents over what the point before left. -/
theorem accAt_B (c : Dev nD) (t : Fin cfg1.N) (h0 : ¬t.val % 8 = 0) (h7 : ¬t.val % 8 = 7) :
    accAt V c t.val t.isLt = accB c (grid1.coords t) (ms0 t) (hs0 t) (ms1 t) (hs1 t) (ms2 t) (hs2 t) (ms3 t) (hs3 t) accM (Memref.isWhole_whole _) (notA_of h0) (notC_of h7) (iblk V c 0 t) (iblk V c 1 t) (iblk V c 2 t) (accAt V c (t.val - 1) (pred_lt t)) := by
  have hz : t.val ≠ 0 := fun e => h0 (by rw [e])
  rw [accAt_step V c t hz]; exact accStep_B V c t _ h0 h7

/-- Where k = 7: case C's contents over what the point before left. -/
theorem accAt_C (c : Dev nD) (t : Fin cfg1.N) (h0 : ¬t.val % 8 = 0) (h7 : t.val % 8 = 7) :
    accAt V c t.val t.isLt = accC c (grid1.coords t) (ms0 t) (hs0 t) (ms1 t) (hs1 t) (ms2 t) (hs2 t) (ms3 t) (hs3 t) accM (Memref.isWhole_whole _) (notA_of h0) (isC_of h7) (iblk V c 0 t) (iblk V c 1 t) (iblk V c 2 t) (accAt V c (t.val - 1) (pred_lt t)) := by
  have hz : t.val ≠ 0 := fun e => h0 (by rw [e])
  rw [accAt_step V c t hz]; exact accStep_C V c t _ h0 h7

/-- What the output's staging buffer holds after the body at a point: where k = 7 what case C stores there;
    elsewhere the window is idle and not written back, and nothing reads this value. -/
def outAt (c : Dev nD) (t : Fin cfg1.N) : Vec F S1024x2048 .f32 :=
  if h7 : t.val % 8 = 7 then
    outC c (grid1.coords t) (ms0 t) (hs0 t) (ms1 t) (hs1 t) (ms2 t) (hs2 t) (ms3 t) (hs3 t) accM (Memref.isWhole_whole _) (notA_of_C h7) (isC_of h7) (iblk V c 0 t) (iblk V c 1 t) (iblk V c 2 t) (accAt V c (t.val - 1) (pred_lt t))
  else outV.read (Elt F) outV.junk

theorem outAt_C (c : Dev nD) (t : Fin cfg1.N) (h7 : t.val % 8 = 7) :
    outAt V c t = outC c (grid1.coords t) (ms0 t) (hs0 t) (ms1 t) (hs1 t) (ms2 t) (hs2 t) (ms3 t) (hs3 t) accM (Memref.isWhole_whole _) (notA_of_C h7) (isC_of h7) (iblk V c 0 t) (iblk V c 1 t) (iblk V c 2 t) (accAt V c (t.val - 1) (pred_lt t)) :=
  dif_pos h7

/-! ## The invariant -/

/-- Before each position: at the region's entry what the launch hands over (the accumulator at anything); afterwards
    the accumulator at what the point before left, the other scoped buffers and the generator register at anything. -/
def PhiS (c : Dev nD) : (n : ℕ) → n ≤ cfg1.N → sProp 𝕄
  | 0, _ => Pipeline.ΦA spec1 c
  | n + 1, hn => iprop(others c (owns (c : Thread nD τ) accM fullShare (accAt V c n hn)) ∗ (∃ r, prngReg c r))

theorem PhiS_succ (c : Dev nD) (n : ℕ) (hn : n < cfg1.N) :
    PhiS V c (n + 1) hn = iprop(others c (owns (c : Thread nD τ) accM fullShare (accAt V c n hn)) ∗ (∃ r, prngReg c r)) := rfl

/-- Before a point that is not the first: the accumulator at what the point before left. -/
theorem PhiS_pos (c : Dev nD) (n : ℕ) (h : n ≤ cfg1.N) (hz : n ≠ 0) :
    PhiS V c n h = iprop(others c (owns (c : Thread nD τ) accM fullShare (accAt V c (n - 1) (by omega))) ∗ (∃ r, prngReg c r)) := by
  cases n with
  | zero => exact absurd rfl hz
  | succ n => rfl

/-- At any position the invariant gives the accumulator at SOME contents: what a point that resets it needs, and
    what the region hands back. -/
theorem PhiS_any (c : Dev nD) (n : ℕ) (h : n ≤ cfg1.N) :
    PhiS V c n h ⊢ iprop(others c (iprop(∃ d, owns (c : Thread nD τ) accM fullShare d)) ∗ (∃ r, prngReg c r)) := by
  cases n with
  | zero => rw [show PhiS V c 0 h = Pipeline.ΦA spec1 c from rfl, PhiA_eq]
  | succ n =>
    rw [PhiS_succ]
    iintro ⟨⟨R0, R1, R2, R3, R4, R5, R6, HS⟩, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    iexists _; iexact HS

/-! ## The proof data -/

/-- Region 1's proof data on a core: the arrays as the region finds them; after the body each input's buffer at
    its block and the output's at what case C stores; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem q_eq (c : Dev nD) (w : Fin cfg1.W) : (dat V c).q w = fullShare := by
  dsimp only [dat]
theorem owed_eq (c : Dev nD) (t : Fin (cfg1.N + 1)) : (dat V c).owed t = 0 := by
  dsimp only [dat]
theorem recorded_eq (c : Dev nD) (t : Fin (cfg1.N + 1)) : (dat V c).recorded t = Set.univ := rfl

theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_out (c : Dev nD) (t : Fin cfg1.N) : (dat V c).after 3 t = outAt V c t := by dsimp only [dat]

theorem Phi_castSucc (c : Dev nD) (t : Fin cfg1.N) :
    (dat V c).Φ t.castSucc = PhiS V c t.val (Nat.le_of_lt t.isLt) := by
  dsimp only [dat]; simp only [Fin.coe_castSucc]

theorem before0 (c : Dev nD) (t : Fin cfg1.N) (d) : (dat V c).before 0 t d = iblk V c 0 t :=
  before0_of V (dat V c) (A_eq V c 0) (after_in0 V c) t d
theorem before1 (c : Dev nD) (t : Fin cfg1.N) (d) : (dat V c).before 1 t d = iblk V c 1 t :=
  before1_of V (dat V c) (A_eq V c 1) (after_in1 V c) t d
theorem before2 (c : Dev nD) (t : Fin cfg1.N) (d) : (dat V c).before 2 t d = iblk V c 2 t :=
  before2_of V (dat V c) (A_eq V c 2) (after_in2 V c) t d

/-! ## The body obligation -/

/-- What the body is called with at a point: the invariant, what the core owes, each window's current buffer, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The inputs are never idle: the body hands each buffer back at its block. -/
theorem leaves0 (c : Dev nD) (t : Fin cfg1.N) :
    (dat V c).leavesExact 0 t = owns (c : Thread nD τ) (ms0 t) fullShare (iblk V c 0 t) := by
  unfold Dat.leavesExact; rw [live0 t, after_in0]
theorem leaves1 (c : Dev nD) (t : Fin cfg1.N) :
    (dat V c).leavesExact 1 t = owns (c : Thread nD τ) (ms1 t) fullShare (iblk V c 1 t) := by
  unfold Dat.leavesExact; rw [live1 t, after_in1]
theorem leaves2 (c : Dev nD) (t : Fin cfg1.N) :
    (dat V c).leavesExact 2 t = owns (c : Thread nD τ) (ms2 t) fullShare (iblk V c 2 t) := by
  unfold Dat.leavesExact; rw [live2 t, after_in2]
/-- Where k ≠ 7 the output's buffer goes back as it came; -/
theorem leaves3_idle (c : Dev nD) (t : Fin cfg1.N) (h7 : ¬t.val % 8 = 7) :
    (dat V c).leavesExact 3 t = iprop(∃ d, owns (c : Thread nD τ) (ms3 t) fullShare ((dat V c).before 3 t d)) :=
  Dat.leavesExact_idle (dat V c) 3 t (idle3_of_notC t (notC_of h7)) (noFlush3_of_notC t (notC_of h7))
/-- where k = 7, at what case C stores. -/
theorem leaves3_C (c : Dev nD) (t : Fin cfg1.N) (h7 : t.val % 8 = 7) :
    (dat V c).leavesExact 3 t = owns (c : Thread nD τ) (ms3 t) fullShare (outAt V c t) := by
  unfold Dat.leavesExact; rw [live3_of_C t (isC_of h7), after_out]

set_option maxHeartbeats 4000000 in
/-- The body at a point with k = 0. The invariant gives the accumulator at some contents (whatever the position);
    case A's run resets and updates it; its pieces cover it, so it reads as case A's contents. -/
theorem sound_A (c : Dev nD) (t : Fin cfg1.N) (h0 : t.val % 8 = 0) :
    bodyPre V c t ⊢ wp frame (wpE (defs₀ (F := F)) Variants.none c none) Set.univ (bodyAt1 t) (fun _ => bodyPost V c t) := by
  have h7 : ¬t.val % 8 = 7 := by omega
  unfold bodyPre bodyPost bodyAt1
  simp only [before0, before1, before2]
  rw [leaves0, leaves1, leaves2]
  rw [show (dat V c).owesAt () t.succ = (dat V c).owesAt () t.castSucc from rfl]
  rw [show (dat V c).Φ t.succ = PhiS V c (t.val + 1) t.isLt from rfl, PhiS_succ, Phi_castSucc]
  rw [leaves3_idle V c t h7, accAt_A V c t h0]
  unfold accA
  iintro ⟨HΦ, Ho, ⟨%d0, H0⟩, ⟨%d1, H1⟩, ⟨%d2, H2⟩, ⟨%d3, H3⟩⟩
  ihave HΦ' := (PhiS_any V c t.val (Nat.le_of_lt t.isLt)) $$ HΦ
  icases HΦ' with ⟨⟨R0, R1, R2, R3, R4, R5, R6, HS⟩, Hg⟩
  iapply ((runA c (grid1.coords t) _ _ _ _ _ _ _ _ _ _ (isA_of h0) (notC_of_A h0) (iblk V c 0 t) (iblk V c 1 t) (iblk V c 2 t)).2.2 _ Set.univ _)
  isplitl [H0]; · iexact H0
  isplitl [H1]; · iexact H1
  isplitl [H2]; · iexact H2
  isplitl [H3]; · iexact H3
  isplitl [HS]; · iexact HS
  iintro ⟨H0, H1, H2, H3, ⟨%es, HS⟩⟩
  isplitl [R0 R1 R2 R3 R4 R5 R6 HS Hg]
  · isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    unfold owns; iexists _; isplitr
    swap; · iexact HS
    ipureintro; exact View.read_writes_of_cover _ _ _ _ _ (coverA c _ _ _ _ _ _ _ _ _ _ _ _ _ _ _ _)
  isplitl [Ho]; · iexact Ho
  isplitl [H0]; · iexact H0
  isplitl [H1]; · iexact H1
  isplitl [H2]; · iexact H2
  iexists _; iexact H3

set_option maxHeartbeats 4000000 in
/-- The body at a point with 0 < k < 7. The invariant gives the accumulator at what the point before left; case B's
    run updates it. -/
theorem sound_B (c : Dev nD) (t : Fin cfg1.N) (h0 : ¬t.val % 8 = 0) (h7 : ¬t.val % 8 = 7) :
    bodyPre V c t ⊢ wp frame (wpE (defs₀ (F := F)) Variants.none c none) Set.univ (bodyAt1 t) (fun _ => bodyPost V c t) := by
  have hz : t.val ≠ 0 := fun e => h0 (by rw [e])
  unfold bodyPre bodyPost bodyAt1
  simp only [before0, before1, before2]
  rw [leaves0, leaves1, leaves2]
  rw [show (dat V c).owesAt () t.succ = (dat V c).owesAt () t.castSucc from rfl]
  rw [show (dat V c).Φ t.succ = PhiS V c (t.val + 1) t.isLt from rfl, PhiS_succ, Phi_castSucc]
  rw [leaves3_idle V c t h7, accAt_B V c t h0 h7, PhiS_pos V c _ _ hz]
  unfold accB
  iintro ⟨⟨⟨R0, R1, R2, R3, R4, R5, R6, HS⟩, Hg⟩, Ho, ⟨%d0, H0⟩, ⟨%d1, H1⟩, ⟨%d2, H2⟩, ⟨%d3, H3⟩⟩
  iapply ((runB c (grid1.coords t) _ _ _ _ _ _ _ _ _ _ (notA_of h0) (notC_of h7) (iblk V c 0 t) (iblk V c 1 t) (iblk V c 2 t) _).2.2 _ Set.univ _)
  isplitl [H0]; · iexact H0
  isplitl [H1]; · iexact H1
  isplitl [H2]; · iexact H2
  isplitl [H3]; · iexact H3
  isplitl [HS]; · iexact HS
  iintro ⟨H0, H1, H2, H3, ⟨%es, HS⟩⟩
  isplitl [R0 R1 R2 R3 R4 R5 R6 HS Hg]
  · isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    unfold owns; iexists _; isplitr
    swap; · iexact HS
    ipureintro; exact View.read_writes_of_cover _ _ _ _ _ (coverB c _ _ _ _ _ _ _ _ _ _ _ _ _ _ _ _ _)
  isplitl [Ho]; · iexact Ho
  isplitl [H0]; · iexact H0
  isplitl [H1]; · iexact H1
  isplitl [H2]; · iexact H2
  iexists _; iexact H3

set_option maxHeartbeats 4000000 in
/-- The body at a point with k = 7. As case B for the accumulator; the output's buffer, taken at anything, goes back
    at what case C's store leaves, which covers it. -/
theorem sound_C (c : Dev nD) (t : Fin cfg1.N) (h0 : ¬t.val % 8 = 0) (h7 : t.val % 8 = 7) :
    bodyPre V c t ⊢ wp frame (wpE (defs₀ (F := F)) Variants.none c none) Set.univ (bodyAt1 t) (fun _ => bodyPost V c t) := by
  have hz : t.val ≠ 0 := fun e => h0 (by rw [e])
  unfold bodyPre bodyPost bodyAt1
  simp only [before0, before1, before2]
  rw [leaves0, leaves1, leaves2]
  rw [show (dat V c).owesAt () t.succ = (dat V c).owesAt () t.castSucc from rfl]
  rw [show (dat V c).Φ t.succ = PhiS V c (t.val + 1) t.isLt from rfl, PhiS_succ, Phi_castSucc]
  rw [leaves3_C V c t h7, outAt_C V c t h7, accAt_C V c t h0 h7, PhiS_pos V c _ _ hz]
  unfold outC accC
  iintro ⟨⟨⟨R0, R1, R2, R3, R4, R5, R6, HS⟩, Hg⟩, Ho, ⟨%d0, H0⟩, ⟨%d1, H1⟩, ⟨%d2, H2⟩, ⟨%d3, H3⟩⟩
  iapply ((runC c (grid1.coords t) _ _ _ _ _ _ _ _ _ _ (notA_of h0) (isC_of h7) (iblk V c 0 t) (iblk V c 1 t) (iblk V c 2 t) _).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [R0 R1 R2 R3 R4 R5 R6 HS Hg]
  · isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    unfold owns; iexists _; isplitr
    swap; · iexact HS
    ipureintro; exact View.read_writes_of_cover _ _ _ _ _ (coverC c _ _ _ _ _ _ _ _ _ _ _ _ _ _ _ _ _)
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverOutC c _ _ _ _ _ _ _ _ _ _ _ _ _ _ _ _ _)

/-- The body at any point: the closed forms say which case it is in. -/
theorem sound_body (c : Dev nD) (t : Fin cfg1.N) :
    bodyPre V c t ⊢ wp frame (wpE (defs₀ (F := F)) Variants.none c none) Set.univ (bodyAt1 t) (fun _ => bodyPost V c t) := by
  by_cases h0 : t.val % 8 = 0
  · exact sound_A V c t h0
  · by_cases h7 : t.val % 8 = 7
    · exact sound_C V c t h0 h7
    · exact sound_B V c t h0 h7

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Pipeline.ΦA spec1 c from rfl]

/-- After the last point the invariant gives it back: the accumulator's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl, PhiA_eq]
  exact PhiS_any V c _ _

/-! ## The value equations -/

/-- Where k = 0 the accumulator restarts:  acc(t) = pay2 x(t) w(t) 0. -/
theorem acc_first (c : Dev nD) (t : Fin cfg1.N) (h : t.val % 8 = 0) :
    accAt V c t.val t.isLt = k1_pay2 (F := F) (iblk V c 0 t) (iblk V c 1 t) (k1_pay1 (F := F)) := by
  rw [accAt_A V c t h]
  exact accA_eq c (grid1.coords t) (ms0 t) (hs0 t) (ms1 t) (hs1 t) (ms2 t) (hs2 t) (ms3 t) (hs3 t) accM (Memref.isWhole_whole _) (isA_of h) (notC_of_A h) (iblk V c 0 t) (iblk V c 1 t) (iblk V c 2 t)

/-- Where k > 0 it goes on from the point before:  acc(t) = pay2 x(t) w(t) acc(t - 1). -/
theorem acc_next (c : Dev nD) (t : Fin cfg1.N) (h : ¬ t.val % 8 = 0) :
    accAt V c t.val t.isLt = k1_pay2 (F := F) (iblk V c 0 t) (iblk V c 1 t) (accAt V c (t.val - 1) (Nat.lt_of_le_of_lt (Nat.sub_le _ _) t.isLt)) := by
  by_cases h7 : t.val % 8 = 7
  · rw [accAt_C V c t h h7]
    exact accC_eq c (grid1.coords t) (ms0 t) (hs0 t) (ms1 t) (hs1 t) (ms2 t) (hs2 t) (ms3 t) (hs3 t) accM (Memref.isWhole_whole _) (notA_of h) (isC_of h7) (iblk V c 0 t) (iblk V c 1 t) (iblk V c 2 t) (accAt V c (t.val - 1) (pred_lt t))
  · rw [accAt_B V c t h h7]
    exact accB_eq c (grid1.coords t) (ms0 t) (hs0 t) (ms1 t) (hs1 t) (ms2 t) (hs2 t) (ms3 t) (hs3 t) accM (Memref.isWhole_whole _) (notA_of h) (notC_of h7) (iblk V c 0 t) (iblk V c 1 t) (iblk V c 2 t) (accAt V c (t.val - 1) (pred_lt t))

/-- Where k = 7 the output block is the accumulator plus the bias row:  out(t) = pay3 acc(t) bias(t). -/
theorem out_last (c : Dev nD) (t : Fin cfg1.N) (h : t.val % 8 = 7) :
    (dat V c).after 3 t = k1_pay3 (F := F) (accAt V c t.val t.isLt) (iblk V c 2 t) := by
  have h0 : ¬t.val % 8 = 0 := by omega
  rw [after_out, outAt_C V c t h,
    outC_eq c (grid1.coords t) (ms0 t) (hs0 t) (ms1 t) (hs1 t) (ms2 t) (hs2 t) (ms3 t) (hs3 t) accM (Memref.isWhole_whole _) (notA_of_C h) (isC_of h) (iblk V c 0 t) (iblk V c 1 t) (iblk V c 2 t) (accAt V c (t.val - 1) (pred_lt t)),
    acc_next V c t h0]

end Region

end Cert.KernelIdeal.R1

end
-- ==== Proof.KI.Run.lean ====
/- THE LAUNCH of the program: @main run from any memory with zero semaphore counters, as eight items in order — four
   stretches of host operations, kernel region 0, a stretch, kernel region 1, a last stretch. The buffer contents at
   every boundary between items are named as a fold from the launch memory (a stretch applies its operations to the
   contents; a region leaves its windows' arrays at what its write-backs fold to and every other buffer as entered),
   each region's proof data are taken at the contents the region is entered from, every region is stated as a segment
   over the thread state "every unscoped buffer at the boundary's contents, the generator register at some state,
   nothing owed", and the launch theorem for a list of segments gives: every weakly fair execution terminates, and
   the final memory holds, at every unscoped buffer, the last boundary's contents. Read at the argument arrays (no item
   writes one) this is the frame claim; read at the result array it names the result. -/
import proofs.«423795_j79723182949081_2_alg».proof.Proof.Gen.KernelIdeal.Regions
import proofs.«423795_j79723182949081_2_alg».proof.Proof.KI.R0
import proofs.«423795_j79723182949081_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items: a fold through @main

Before region 0 the contents are the generated `Gen.V0` … `Gen.V4` (the launch memory, then each of the four
stretches applied). -/

/-- Region 0's entry contents, read at the TensorCore's references (what region 0's proof data take). -/
abbrev E4 : (c : Dev nD) → (b : Ref sig .tc) → Buf (Elt F) ((c : Thread nD τ).loc b) := fun c b => Gen.V4 m c b
/-- At region 0's exit: its windows' arrays at what the pipeline leaves (an input as entered, an output's write-backs
    folded), every other buffer as entered. -/
def W5 (c : Dev nD) : Valuation τ sig (Elt F) :=
  Pipeline.withArrays spec0 c (Gen.V4 m c) fun w => (R0.dat (E4 m) c).arrAt w cfg0.N
/-- After the stretch between the regions (region 1's entry). -/
abbrev W6 : Dev nD → Valuation τ sig (Elt F) := fun c => StableHlo.after hostOps1 (W5 m c)
/-- Region 1's entry contents, read at the TensorCore's references (what region 1's proof data take). -/
abbrev E6 : (c : Dev nD) → (b : Ref sig .tc) → Buf (Elt F) ((c : Thread nD τ).loc b) := fun c b => W6 m c b
/-- At region 1's exit: its windows' arrays at what the pipeline leaves, every other buffer as entered. -/
def W7 (c : Dev nD) : Valuation τ sig (Elt F) :=
  Pipeline.withArrays spec1 c (W6 m c) fun w => (R1.dat (E6 m) c).arrAt w cfg1.N
/-- After the last stretch: the contents @main returns with. -/
abbrev W8 : Dev nD → Valuation τ sig (Elt F) := fun c => StableHlo.after hostOps2 (W7 m c)

theorem W5_arr (c : Dev nD) (w : Fin cfg0.W) :
    W5 m c (Proc.devRef .tc (Pipeline.arrRef spec0 w)) = (R0.dat (E4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = Gen.V4 m c (Proc.devRef .tc b) := by
  unfold W5; exact Pipeline.withArrays_of_ne spec0 c _ _ b hb
theorem W7_arr (c : Dev nD) (w : Fin cfg1.W) :
    W7 m c (Proc.devRef .tc (Pipeline.arrRef spec1 w)) = (R1.dat (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-! ### A buffer no item touches ends as launched

A reference written by none of the six stretches and lying under none of the two regions' windows holds, at the end,
what the launch memory holds there: the fold is walked back boundary by boundary. Every argument array is such a
reference (a region reads an argument only through an input window of a reshaped copy, or not at all). -/

theorem W8_untouched (c : Dev nD) (r : Ref sig .tc)
    (h7 : r ∉ hostOps2_W) (h6 : ∀ w, Pipeline.arrRef spec1 w ≠ r) (h5 : r ∉ hostOps1_W)
    (h4 : ∀ w, Pipeline.arrRef spec0 w ≠ r) (h3 : r ∉ hostOps0_3_W) (h2 : r ∉ hostOps0_2_W)
    (h1 : r ∉ hostOps0_1_W) (h0 : r ∉ hostOps0_W) :
    W8 m c (Proc.devRef .tc r) = m ((c : Thread nD τ).loc r) :=
  calc W8 m c (Proc.devRef .tc r)
    _ = W7 m c (Proc.devRef .tc r) := StableHlo.after_of_writes_sub hostOps2 _ hostOps2_writes h7
    _ = W6 m c (Proc.devRef .tc r) := W7_of_ne m c r h6
    _ = W5 m c (Proc.devRef .tc r) := StableHlo.after_of_writes_sub hostOps1 _ hostOps1_writes h5
    _ = Gen.V4 m c (Proc.devRef .tc r) := W5_of_ne m c r h4
    _ = Gen.V3 m c (Proc.devRef .tc r) := V4_of m c r h3
    _ = Gen.V2 m c (Proc.devRef .tc r) := V3_of m c r h2
    _ = Gen.V1 m c (Proc.devRef .tc r) := V2_of m c r h1
    _ = Gen.V0 m c (Proc.devRef .tc r) := V1_of m c r h0
    _ = m ((c : Thread nD τ).loc r) := rfl

theorem W8_main_arg0 (c : Dev nD) : W8 m c (Proc.devRef .tc main_arg0) = m ((c : Thread nD τ).loc main_arg0) :=
  W8_untouched m c main_arg0 (by decide) (by decide) (by decide) (by decide) (by decide) (by decide) (by decide) (by decide)
theorem W8_main_arg1 (c : Dev nD) : W8 m c (Proc.devRef .tc main_arg1) = m ((c : Thread nD τ).loc main_arg1) :=
  W8_untouched m c main_arg1 (by decide) (by decide) (by decide) (by decide) (by decide) (by decide) (by decide) (by decide)
theorem W8_main_arg2 (c : Dev nD) : W8 m c (Proc.devRef .tc main_arg2) = m ((c : Thread nD τ).loc main_arg2) :=
  W8_untouched m c main_arg2 (by decide) (by decide) (by decide) (by decide) (by decide) (by decide) (by decide) (by decide)
theorem W8_main_arg3 (c : Dev nD) : W8 m c (Proc.devRef .tc main_arg3) = m ((c : Thread nD τ).loc main_arg3) :=
  W8_untouched m c main_arg3 (by decide) (by decide) (by decide) (by decide) (by decide) (by decide) (by decide) (by decide)
theorem W8_main_arg4 (c : Dev nD) : W8 m c (Proc.devRef .tc main_arg4) = m ((c : Thread nD τ).loc main_arg4) :=
  W8_untouched m c main_arg4 (by decide) (by decide) (by decide) (by decide) (by decide) (by decide) (by decide) (by decide)
theorem W8_main_arg5 (c : Dev nD) : W8 m c (Proc.devRef .tc main_arg5) = m ((c : Thread nD τ).loc main_arg5) :=
  W8_untouched m c main_arg5 (by decide) (by decide) (by decide) (by decide) (by decide) (by decide) (by decide) (by decide)
theorem W8_main_arg6 (c : Dev nD) : W8 m c (Proc.devRef .tc main_arg6) = m ((c : Thread nD τ).loc main_arg6) :=
  W8_untouched m c main_arg6 (by decide) (by decide) (by decide) (by decide) (by decide) (by decide) (by decide) (by decide)
theorem W8_main_arg7 (c : Dev nD) : W8 m c (Proc.devRef .tc main_arg7) = m ((c : Thread nD τ).loc main_arg7) :=
  W8_untouched m c main_arg7 (by decide) (by decide) (by decide) (by decide) (by decide) (by decide) (by decide) (by decide)

/-! ## The proof data family and the thread state -/

/-- Every pipeline's proof data, each at its region's entry contents — a literal `match`, so that the launch theorem's
    configuration of pipeline `p` at a numeral reduces to the printed configuration. -/
def pdats : (p : Fin 2) → (c : Dev nD) → Dat τ (Elt F) Unit ℕ (UR sig nD τ) ℕ (Pipeline.pin (pcfgs (F := F)) adm p) c
  | ⟨0, _⟩ => fun c => R0.dat (E4 m) c
  | ⟨1, _⟩ => fun c => R1.dat (E6 m) c

/-- No body variant is named, no core owes another anything, no level is assigned. -/
abbrev 𝒱₀ : Variants := Variants.none
abbrev L : GSem nD τ sig → Finset Unit := fun _ => ∅
abbrev lv : GSem nD τ sig → Unit → ℕ := fun _ _ => 0

/-- What rides beside the buffers through every item: the core's generator register at some state (a region's
    invariant takes it in and gives it back) and the core owing nothing. -/
abbrev Rest (c : Dev nD) : sProp 𝕄 :=
  iprop((∃ r, prngReg c r) ∗ ∃ W, owes (c : Thread nD τ) (0 : CellTallies nD τ sig Unit) W)
/-- The thread state at a boundary whose contents are `W`: every unscoped buffer whole at `W c`, beside `Rest`. -/
abbrev St (W : Dev nD → Valuation τ sig (Elt F)) (c : Dev nD) : sProp 𝕄 :=
  iprop(StableHlo.held (c : Thread nD τ) (Pipeline.ucRefs τ sig) (W c) ∗ Rest c)

/-- A stretch of host operations as a segment from the contents `W`: it runs to the same thread state at
    `StableHlo.after ops (W c)`, which is the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ### Owing nothing, as a pipeline holds it

A pipeline holds the core's dues at a point as the tallies its proof data name there, the recorded pairs within a
bound. Where the proof data owe nothing and bound nothing, that is the core owing nothing with some recorded set —
in both directions. -/

theorem owesAt_of_free {cfg : Pipeline.Cfg sig Λ₀} {c : Dev nD} (dat : Dat τ (Elt F) Unit ℕ (UR sig nD τ) ℕ cfg c)
    (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩; iexists W; isplitr
  · ipureintro; intro x _; exact Or.inl (hr ▸ Set.mem_univ x)
  iexact HO

theorem free_of_owesAt {cfg : Pipeline.Cfg sig Λ₀} {c : Dev nD} (dat : Dat τ (Elt F) Unit ℕ (UR sig nD τ) ℕ cfg c)
    (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! ## The regions as segments

Region K is entered from every unscoped buffer at its entry contents beside `Rest`, and left at its exit contents
beside `Rest`. At entry the windows' arrays are split out of the unscoped buffers — the proof data's entry contents
are those buffers' contents (`A_eq`), each array whole at the full share (`q_eq`) —, the generator register goes into
the kernel's invariant with the scoped buffers no window stages, and the dues enter at nothing owed, nothing bound.
At exit the arrays, now at what the write-backs fold to, are put back among the unscoped buffers: these are the exit
contents by their definition. No region has a semaphore of its own or a prefetched table. -/

/-- No pipeline has a prefetched table: the tables' share of a region's entry is empty. -/
theorem prefHeld_none (p : Fin 2) (c : Dev nD) :
    (BI.emp : sProp 𝕄) ⊢ Pipeline.prefHeld (Ix := Unit) (Name := ℕ) (U := UR sig nD τ) (Lvl := ℕ)
      (pcfgs (F := F) p).pre c (fun _ => fullShare) (adm (F := F) p).1 := by
  unfold Pipeline.prefHeld
  rw [show (Finset.univ : Finset (Fin 0)) = ∅ from rfl, BI.bigSep_empty]

/-- Region 0's exit contents at its arrays and off them: the two hypotheses under which the arrays and the
    bypassing buffers make up every unscoped buffer at `W5`. -/
theorem exit0_arr (c : Dev nD) (w : Fin cfg0.W) :
    (R0.dat (E4 m) c).arrAt w cfg0.N = W5 m c (Proc.devRef .tc (Pipeline.arrRef spec0 w)) := (W5_arr m c w).symm
theorem exit0_rest (c : Dev nD) (b : Ref sig .tc) (hb : b ∉ Finset.univ.image (Pipeline.arrRef spec0)) :
    W5 m c (Proc.devRef .tc b) = E4 m c b :=
  W5_of_ne m c b fun w e => hb (Finset.mem_image.mpr ⟨w, Finset.mem_univ _, e⟩)
/-- The same of region 1 at `W7`. -/
theorem exit1_arr (c : Dev nD) (w : Fin cfg1.W) :
    (R1.dat (E6 m) c).arrAt w cfg1.N = W7 m c (Proc.devRef .tc (Pipeline.arrRef spec1 w)) := (W7_arr m c w).symm
theorem exit1_rest (c : Dev nD) (b : Ref sig .tc) (hb : b ∉ Finset.univ.image (Pipeline.arrRef spec1)) :
    W7 m c (Proc.devRef .tc b) = E6 m c b :=
  W7_of_ne m c b fun w e => hb (Finset.mem_image.mpr ⟨w, Finset.mem_univ _, e⟩)

-- a library lemma stated over the launch theorem's pinned configuration of pipeline `p` unifies with the printed
-- configuration only when unification may unfold plain definitions in a metavariable's type
set_option backward.isDefEq.respectTransparency.types false in
/-- REGION 0 over the thread state: from `Gen.V4` to `W5`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E4 m) c).loose
  hwaits := Pipeline.hwaits_of_owed_zero _ _ _ _ L lv 0 fun c t => R0.owed_eq (E4 m) c t
  pre := St (Gen.V4 m)
  post := St (W5 m)
  X c := iprop(∃ r, prngReg c r)
  Y c := iprop(∃ r, prngReg c r)
  Z c := Pipeline.unscopedRest (Ix := Unit) (Name := ℕ) (U := UR sig nD τ) (Lvl := ℕ) spec0 c (E4 m c)
  hentry c := by
    rw [Pipeline.ownSems0_none]
    have hsplit := Pipeline.arrays_of_unscopedBufs (p := 0) (pcfgs (F := F)) adm (pdats m) launch0.win launch0.arr_whole c
      ((pdats m 0 c).share_full fun w => R0.q_eq (E4 m) c w) (E4 m c) fun w => R0.A_eq (E4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (prefHeld_none 0 c); iempintro
    isplitl [HO]
    · iapply (owesAt_of_free (R0.dat (E4 m) c) 0 (R0.owed_eq (E4 m) c 0) (R0.recorded_eq (E4 m) c 0)); iexact HO
    isplitl [Hp]; · iexact Hp
    iexact Hrest
  hin c := by
    refine BIBase.Entails.trans ?_ (R0.hin (E4 m) c)
    unfold Pipeline.ΦA
    iintro ⟨Hp, -, Hr⟩
    isplitl [Hr]; · iexact Hr
    iexact Hp
  hout c := by
    refine BIBase.Entails.trans (R0.hout (E4 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => R0.q_eq (E4 m) c w)
      (E4 m c) (fun b => W5 m c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (free_of_owesAt (R0.dat (E4 m) c) (Fin.last cfg0.N) (R0.owed_eq (E4 m) c _)); iexact HO

-- as above
set_option backward.isDefEq.respectTransparency.types false in
/-- REGION 1 over the thread state: from `W6` to `W7`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E6 m) c).loose
  hwaits := Pipeline.hwaits_of_owed_zero _ _ _ _ L lv 1 fun c t => R1.owed_eq (E6 m) c t
  pre := St (W6 m)
  post := St (W7 m)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun w => R1.q_eq (E6 m) c w) (E6 m c) fun w => R1.A_eq (E6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (prefHeld_none 1 c); iempintro
    isplitl [HO]
    · iapply (owesAt_of_free (R1.dat (E6 m) c) 0 (R1.owed_eq (E6 m) c 0) (R1.recorded_eq (E6 m) c 0)); iexact HO
    isplitl [Hp]; · iexact Hp
    iexact Hrest
  hin c := by
    refine BIBase.Entails.trans ?_ (R1.hin (E6 m) c)
    unfold Pipeline.ΦA
    iintro ⟨Hp, -, Hr⟩
    isplitl [Hr]; · iexact Hr
    iexact Hp
  hout c := by
    refine BIBase.Entails.trans (R1.hout (E6 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => R1.q_eq (E6 m) c w)
      (E6 m c) (fun b => W7 m c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (free_of_owesAt (R1.dat (E6 m) c) (Fin.last cfg1.N) (R1.owed_eq (E6 m) c _)); iexact HO

/-! ## @main as segments, and the launch -/

/-- @main's eight items in order: a host segment per stretch from its boundary's contents, a region per kernel. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .region (reg0 m),
    .host (hseg hostOps1 hostOps1_sub hostOps1_fresh (W5 m)),
    .region (reg1 m),
    .host (hseg hostOps2 hostOps2_sub hostOps2_fresh (W7 m)) ]

/-- The segments' fragments of @main, in order: the chain `Gen.main_chain` states @main to be. -/
theorem segs_progs : (segs m).map Pipeline.Seg.prog = [
    StableHlo.seq hostOps0,
    StableHlo.seq hostOps0_1,
    StableHlo.seq hostOps0_2,
    StableHlo.seq hostOps0_3,
    Prog.lift (.customCall (Pipeline.entry 0) ()),
    StableHlo.seq hostOps1,
    Prog.lift (.customCall (Pipeline.entry 1) ()),
    StableHlo.seq hostOps2 ] := rfl

/-- The last thread state without the dues (the launch theorem's chain ends at it BESIDE the core owing nothing):
    every unscoped buffer at the last boundary's contents, the generator register at some state. -/
abbrev Tₙ (c : Dev nD) : sProp 𝕄 :=
  iprop(StableHlo.held (c : Thread nD τ) (Pipeline.ucRefs τ sig) (W8 m c) ∗ ∃ r, prngReg c r)

/-- The last item's thread state is `Tₙ` beside the core owing nothing: the same three resources, regrouped. -/
theorem last_state (c : Dev nD) :
    St (W8 m) c ⊢ iprop(Tₙ m c ∗ ∃ W, owes (c : Thread nD τ) (0 : CellTallies nD τ sig Unit) W) := by
  iintro ⟨Hh, Hp, HO⟩
  isplitr [HO]
  · isplitl [Hh] <;> iassumption
  iexact HO

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and every final memory holds at every unscoped buffer of every core the last boundary's
    contents `W8`. The launch over the segments: the first thread state from what the launch deals each core, each
    boundary's state the next item's by name, the last read against the final state. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain, segs_progs m]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (Gen.V0 m)) (Tₙ := Tₙ m)
    (hch := ⟨fun _ => .rfl, fun _ => .rfl, fun _ => .rfl, fun _ => .rfl, fun _ => .rfl, fun _ => .rfl, fun _ => .rfl,
      fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: every argument array ends holding what it held at launch — the run, read at the eight arguments, each
    of which no item writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c)⟩) (run_main m ρ)

/-- THE RESULT beside the frame: the result array ends holding the last boundary's contents there, every argument what
    it held at launch. -/
theorem run_result : θ_run defs (onTc (τ := τ) (main (F := F))) ⟨m, fun _ => 0, ρ⟩ (fun r => ∀ c : Dev nD,
      r.2.mem ((c.tc : Thread nD τ).loc main_v38) = W8 m c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v38 (by decide)),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c)⟩) (run_main m ρ)

end Cert.KernelIdeal.Run

end
-- ==== Proof.Spec.lean ====
/-
  The result as ONE function of the argument arrays, over the extended reals.

  The weight matrix `wt` (the dequantised 2-bit words, 4096 × 4096) enters as a parameter: both programs compute it by
  the same chain of host operations. A take along an axis of extent 4096 reads, for an index word `p` (already
  wrapped from a negative Python index), the row `row p`: the word read as a signed integer and clamped into
  [0, 4095]. The permuted frame weight is

      w3[o, j] = Σ_k wt[row (po o), k] · P[row (pi j), k]

  and the result is  out[b, s, o] = Σ_k x[b, s, k] · w3[o, k] + bias[o].

  `prep` and `lin` are the two matrix products the kernel regions compute from whole arrays: `prep a b = a · bᵀ` and
  `lin x w b = x · wᵀ + b` (the bias a 1 × 4096 row).
-/
import Idealize.ShloMosaic.PureOps.Ideal
import Idealize.ShloMosaic.Lib.ValueIdx

noncomputable section

open scoped BigOperators

namespace Cert.Spec

open Idealize.ShloMosaic Idealize.ShloMosaic.ValueIdx

abbrev S4096 : Shape := ⟨1, ![4096]⟩
abbrev S4096x4096 : Shape := ⟨2, ![4096, 4096]⟩
abbrev S8192x4096 : Shape := ⟨2, ![8192, 4096]⟩
abbrev S1x4096 : Shape := ⟨2, ![1, 4096]⟩
abbrev S4x2048x4096 : Shape := ⟨3, ![4, 2048, 4096]⟩

/-- The row a take along an axis of extent 4096 reads at the index word `p`: `p` as a signed integer, clamped
    into [0, 4095]. -/
def row (p : BitVec 32) : Fin 4096 := ⟨min p.toInt.toNat 4095, by omega⟩

/-- `a · bᵀ`: entry (r, c) is the sum over k of a[r, k] · b[c, k]. -/
def prep (a b : S4096x4096.Idx → EReal) : S4096x4096.Idx → EReal :=
  fun i => ∑ k : Fin 4096, a (ix2 (i 0) k) * b (ix2 (i 1) k)

/-- `x · wᵀ + bias`: entry (r, o) is the sum over k of x[r, k] · w[o, k], plus bias[0, o]. -/
def lin (x : S8192x4096.Idx → EReal) (w : S4096x4096.Idx → EReal) (b : S1x4096.Idx → EReal) : S8192x4096.Idx → EReal :=
  fun i => (∑ k : Fin 4096, x (ix2 (i 0) k) * w (ix2 (i 1) k)) + b (ix2 (0 : Fin 1) (i 1))

/-- Rows of `a` taken at the index words `p`: row r of the result is row `row (p r)` of `a`. -/
def takeRows (a : S4096x4096.Idx → EReal) (p : S4096.Idx → BitVec 32) : S4096x4096.Idx → EReal :=
  fun i => a (ix2 (row (p (ix1 (i 0)))) (i 1))

/-- The permuted frame weight: `w3[o, j] = Σ_k wt[row (po o), k] · P[row (pi j), k]`. -/
def w3 (wt P : S4096x4096.Idx → EReal) (pi po : S4096.Idx → BitVec 32) : S4096x4096.Idx → EReal :=
  prep (takeRows wt po) (takeRows P pi)

/-- The whole result: `out[b, s, o] = Σ_k x[b, s, k] · w3[o, k] + bias[o]`. -/
def out (x : S4x2048x4096.Idx → EReal) (wt P : S4096x4096.Idx → EReal) (bias : S4096.Idx → EReal)
    (pi po : S4096.Idx → BitVec 32) : S4x2048x4096.Idx → EReal :=
  fun i => (∑ k : Fin 4096, x (ix3 (i 0) (i 1) k) * w3 wt P pi po (ix2 (i 2) k)) + bias (ix1 (i 2))

end Cert.Spec

end
-- ==== Proof.KI.R0Value.lean ====
/-
  Region 0 at the ideal instance, the value leg: a matrix product blocked over the grid's last axis.

  The grid is 4 × 4 × 4; point t = 16·i + 4·j + k reads block (i, k) of the first operand a and block (j, k) of the
  second operand b (each 1024 × 1024 of a 4096 × 4096 array) and adds, into a 1024 × 1024 accumulator that starts from
  zero at k = 0, the block product  acc[r, c] += Σ_q a_blk[r, q] · b_blk[c, q].  At k = 3 the accumulator is written to
  block (i, j) of the result. Over the extended reals every operation is exact, so after the four k-steps entry (r, c) of
  the accumulator is  Σ_{k < 4} Σ_{q < 1024} a[1024·i + r, 1024·k + q] · b[1024·j + c, 1024·k + q],  and the four
  block sums join to the one sum over the 4096 columns: only commutativity and associativity of + are used.
-/
import proofs.«423795_j79723182949081_2_alg».proof.Proof.KI.R0
import proofs.«423795_j79723182949081_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R0V

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The payloads at an index -/

/-! The block product contracts both operands along their second axis: for output entry (r, c) and contracted
    column q the left operand is read at (r, q) and the right operand at (c, q). -/
theorem lhs_ax0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_ax1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_ax0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_ax1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into the zero accumulator, at entry (r, c): the sum over the contracted column q of
    a[r, q] · b[c, q]. -/
theorem matmul_at (a b : FVec Ideal S1024x1024 .bf16) (r c : Fin 1024) :
    FloatOps.matmul dot_S1024x1024_S1024x1024_S1024x1024_1_1_0_0_n_n none a b (constant S1024x1024 .f32 0x00000000#32) (ix2 r c)
      = ∑ q : Fin 1024, a (ix2 r q) * b (ix2 c q) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 r c) ((ValueIdx.contrEquiv1 dot_S1024x1024_S1024x1024_S1024x1024_1_1_0_0_n_n 1024 rfl rfl).symm k) = ix2 r k := funext fun a => Fin.ext (by
    match a with
    | ⟨0, _⟩ => exact lhs_ax0 _ _
    | ⟨1, _⟩ => exact (lhs_ax1 _ _).trans hk)
  have er : dot_S1024x1024_S1024x1024_S1024x1024_1_1_0_0_n_n.rhsIdx (ix2 r c) ((ValueIdx.contrEquiv1 dot_S1024x1024_S1024x1024_S1024x1024_1_1_0_0_n_n 1024 rfl rfl).symm k) = ix2 c k := funext fun a => Fin.ext (by
    match a with
    | ⟨0, _⟩ => exact rhs_ax0 _ _
    | ⟨1, _⟩ => exact (rhs_ax1 _ _).trans hk)
  rw [el, er]

/-- The reset payload is the zero block. -/
theorem pay1_at (r c : Fin 1024) : (k0_pay1 (F := Ideal)) (ix2 r c) = (0 : EReal) := by
  unfold k0_pay1
  simp only [shapeCast_self]
  exact Ideal.ofBits_zero_f32

/-- One k-step: entry (r, c) of the accumulator gains the block product's entry. -/
theorem pay2_at (acc : Vec Ideal S1024x1024 .f32) (a b : Vec Ideal S1024x1024 .bf16) (r c : Fin 1024) :
    k0_pay2 (F := Ideal) acc a b (ix2 r c) = acc (ix2 r c) + ∑ q : Fin 1024, a (ix2 r q) * b (ix2 c q) := by
  unfold k0_pay2
  simp only [shapeCast_self]
  exact congrArg (acc (ix2 r c) + ·) (matmul_at a b r c)

/-- The change of format on the way out keeps the value. -/
theorem pay3_at (acc : Vec Ideal S1024x1024 .f32) (r c : Fin 1024) :
    k0_pay3 (F := Ideal) acc (ix2 r c) = acc (ix2 r c) := rfl

/-! ## The blocks a point reads -/

variable (V : (c : Dev nD) → (b : Ref sig .tc) → Buf (Elt Ideal) ((c : Thread nD τ).loc b))

/-- The two operands and the blocks point t stages of them, named at their literal types. -/
abbrev aarr (c : Dev nD) : Vec Ideal S4096x4096 .bf16 := V c main_v32
abbrev barr (c : Dev nD) : Vec Ideal S4096x4096 .bf16 := V c main_v33
abbrev ablk (c : Dev nD) (t : Fin cfg0.N) : Vec Ideal S1024x1024 .bf16 := R0.iblk V c 0 t
abbrev bblk (c : Dev nD) (t : Fin cfg0.N) : Vec Ideal S1024x1024 .bf16 := R0.iblk V c 1 t

/-- The index maps over the grid: point t = 16·i + 4·j + k stages block (i, k) of the first operand, block (j, k) of
    the second, and block (i, j) of the result. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- Entry (r, q) of the first operand's block at point t is the array's entry (1024·i + r, 1024·k + q). -/
theorem ablk_at (c : Dev nD) (t : Fin cfg0.N) (r q : Fin 1024) (R Q : Fin 4096)
    (hR : R.val = t.val / 16 * 1024 + r.val) (hQ : Q.val = t.val % 4 * 1024 + q.val) :
    ablk V c t (ix2 r q) = aarr V c (ix2 R Q) := by
  obtain ⟨e0, e1, -, -, -, -⟩ := idx_facts t
  unfold ablk R0.iblk
  rw [View.read_apply]
  show V c main_v32 (((cfg0.win 0).blk t).view.emb (ix2 r q)) = V c main_v32 (ix2 R Q)
  refine congrArg (V c main_v32) ?_
  funext a
  apply Fin.ext
  match a with
  | ⟨0, _⟩ => show win0_0.index t (0 : Fin 2) * 1024 + 1 * r.val = R.val; omega
  | ⟨1, _⟩ => show win0_0.index t (1 : Fin 2) * 1024 + 1 * q.val = Q.val; omega

/-- Entry (r, q) of the second operand's block at point t is the array's entry (1024·j + r, 1024·k + q). -/
theorem bblk_at (c : Dev nD) (t : Fin cfg0.N) (r q : Fin 1024) (R Q : Fin 4096)
    (hR : R.val = t.val / 4 % 4 * 1024 + r.val) (hQ : Q.val = t.val % 4 * 1024 + q.val) :
    bblk V c t (ix2 r q) = barr V c (ix2 R Q) := by
  obtain ⟨-, -, e0, e1, -, -⟩ := idx_facts t
  unfold bblk R0.iblk
  rw [View.read_apply]
  show V c main_v33 (((cfg0.win 1).blk t).view.emb (ix2 r q)) = V c main_v33 (ix2 R Q)
  refine congrArg (V c main_v33) ?_
  funext a
  apply Fin.ext
  match a with
  | ⟨0, _⟩ => show win0_1.index t (0 : Fin 2) * 1024 + 1 * r.val = R.val; omega
  | ⟨1, _⟩ => show win0_1.index t (1 : Fin 2) * 1024 + 1 * q.val = Q.val; omega

/-! ## The accumulator after each point -/

/-- Coordinate r inside block b of an axis cut into four blocks of 1024. -/
def at4 (b : ℕ) (r : Fin 1024) : Fin 4096 :=
  ⟨b % 4 * 1024 + r.val, by have := r.isLt; have := Nat.mod_lt b (show 0 < 4 by decide); omega⟩

theorem at4_val (b : ℕ) (hb : b < 4) (r : Fin 1024) : (at4 b r).val = b * 1024 + r.val := by
  show b % 4 * 1024 + r.val = _
  rw [Nat.mod_eq_of_lt hb]

/-- The part of Σ_K a[R, K] · b[C, K] that lies in column block k. -/
def bsum (a b : S4096x4096.Idx → EReal) (R C : Fin 4096) (k : ℕ) : EReal :=
  ∑ q : Fin 1024, a (ix2 R (at4 k q)) * b (ix2 C (at4 k q))

/-- The first n column blocks of that sum. -/
def psum (a b : S4096x4096.Idx → EReal) (R C : Fin 4096) (n : ℕ) : EReal :=
  ∑ k ∈ Finset.range n, bsum a b R C k

theorem psum_succ (a b : S4096x4096.Idx → EReal) (R C : Fin 4096) (n : ℕ) :
    psum a b R C (n + 1) = psum a b R C n + bsum a b R C n := Finset.sum_range_succ _ _

theorem psum_one (a b : S4096x4096.Idx → EReal) (R C : Fin 4096) : psum a b R C 1 = bsum a b R C 0 :=
  Finset.sum_range_one _

/-- The block product point t adds, at entry (r, c): column block k = t mod 4 of the sum for row 1024·i + r of the first
    operand against row 1024·j + c of the second. -/
theorem step_at (c : Dev nD) (t : Fin cfg0.N) (r c' : Fin 1024) :
    (∑ q : Fin 1024, ablk V c t (ix2 r q) * bblk V c t (ix2 c' q))
      = bsum (aarr V c) (barr V c) (at4 (t.val / 16) r) (at4 (t.val / 4 % 4) c') (t.val % 4) := by
  have hN : cfg0.N = 64 := N_0
  have ht := t.isLt
  unfold bsum
  refine Finset.sum_congr rfl fun q _ => ?_
  rw [ablk_at V c t r q (at4 (t.val / 16) r) (at4 (t.val % 4) q) (at4_val _ (by omega) r) (at4_val _ (by omega) q),
    bblk_at V c t c' q (at4 (t.val / 4 % 4) c') (at4 (t.val % 4) q) (at4_val _ (by omega) c') (at4_val _ (by omega) q)]

/-- The accumulator's two recursion equations (reset at k = 0, carried on otherwise), over the named blocks. -/
theorem acc_first' (c : Dev nD) (t : Fin cfg0.N) (h : t.val % 4 = 0) :
    R0.accAt V c t.val t.isLt = k0_pay2 (F := Ideal) (k0_pay1 (F := Ideal)) (ablk V c t) (bblk V c t) :=
  R0.acc_first V c t h
theorem acc_next' (c : Dev nD) (t : Fin cfg0.N) (h : ¬ t.val % 4 = 0) :
    R0.accAt V c t.val t.isLt
      = k0_pay2 (F := Ideal) (R0.accAt V c (t.val - 1) (Nat.lt_of_le_of_lt (Nat.sub_le _ _) t.isLt)) (ablk V c t) (bblk V c t) :=
  R0.acc_next V c t h

/-- After point n = 16·i + 4·j + k, entry (r, c) of the accumulator holds the first k + 1 column blocks of the sum for
    row 1024·i + r of the first operand against row 1024·j + c of the second: by induction on the point, the zero start
    absorbed by 0 + x = x. -/
theorem acc_inv (c : Dev nD) : ∀ (n : ℕ) (h : n < cfg0.N) (r c' : Fin 1024),
    R0.accAt V c n h (ix2 r c')
      = psum (aarr V c) (barr V c) (at4 (n / 16) r) (at4 (n / 4 % 4) c') (n % 4 + 1) := by
  have first : ∀ (n : ℕ) (h : n < cfg0.N), n % 4 = 0 → ∀ (r c' : Fin 1024),
      R0.accAt V c n h (ix2 r c')
        = psum (aarr V c) (barr V c) (at4 (n / 16) r) (at4 (n / 4 % 4) c') (n % 4 + 1) := by
    intro n h h0 r c'
    refine (congrFun (acc_first' V c ⟨n, h⟩ h0) (ix2 r c')).trans ?_
    refine (pay2_at _ _ _ r c').trans ?_
    rw [pay1_at, zero_add, step_at V c ⟨n, h⟩ r c']
    show bsum _ _ _ _ (n % 4) = psum _ _ _ _ (n % 4 + 1)
    rw [h0, psum_one]
  intro n
  induction n with
  | zero => intro h r c'; exact first 0 h rfl r c'
  | succ m ih =>
    intro h r c'
    by_cases h0 : (m + 1) % 4 = 0
    · exact first (m + 1) h h0 r c'
    · refine (congrFun (acc_next' V c ⟨m + 1, h⟩ h0) (ix2 r c')).trans ?_
      refine (pay2_at _ _ _ r c').trans ?_
      rw [step_at V c ⟨m + 1, h⟩ r c']
      show R0.accAt V c m _ (ix2 r c') + bsum _ _ _ _ ((m + 1) % 4) = _
      rw [ih (by omega) r c']
      have e1 : m / 16 = (m + 1) / 16 := by omega
      have e2 : m / 4 % 4 = (m + 1) / 4 % 4 := by omega
      have e3 : (m + 1) % 4 = m % 4 + 1 := by omega
      rw [e1, e2, e3, ← psum_succ]

/-! ## The four column blocks are the whole sum -/

/-- Four blocks of 1024 columns are the 4096 columns: the sum over (k, q) re-indexed by K = 1024·k + q. Only the
    commutative-monoid structure of + on the extended reals is used. -/
theorem psum_four (a b : S4096x4096.Idx → EReal) (R C : Fin 4096) :
    psum a b R C 4 = ∑ K : Fin 4096, a (ix2 R K) * b (ix2 C K) := by
  let f : Fin 4096 → EReal := fun K => a (ix2 R K) * b (ix2 C K)
  show (∑ k ∈ Finset.range 4, ∑ q : Fin 1024, f (at4 k q)) = ∑ K : Fin 4096, f K
  symm
  calc ∑ K : Fin 4096, f K
      = ∑ p : Fin 4 × Fin 1024, f (finProdFinEquiv p) := (Equiv.sum_comp (finProdFinEquiv (m := 4) (n := 1024)) f).symm
    _ = ∑ k : Fin 4, ∑ q : Fin 1024, f (finProdFinEquiv (k, q)) := Fintype.sum_prod_type _
    _ = ∑ k : Fin 4, ∑ q : Fin 1024, f (at4 k.val q) := by
        refine Finset.sum_congr rfl fun k _ => Finset.sum_congr rfl fun q _ => congrArg f (Fin.ext ?_)
        show q.val + 1024 * k.val = k.val % 4 * 1024 + q.val
        have := k.isLt
        omega
    _ = ∑ k ∈ Finset.range 4, ∑ q : Fin 1024, f (at4 k q) := (Finset.sum_range (fun k => ∑ q : Fin 1024, f (at4 k q))).symm

/-- The specification's product at an index whose coordinates are known. -/
theorem prep_at (a b : S4096x4096.Idx → EReal) (i : S4096x4096.Idx) (R C : Fin 4096)
    (h0 : (i 0).val = R.val) (h1 : (i 1).val = C.val) :
    Cert.Spec.prep a b i = ∑ K : Fin 4096, a (ix2 R K) * b (ix2 C K) := by
  obtain ⟨R', C', rfl⟩ : ∃ R' C' : Fin 4096, i = ix2 R' C' := ⟨i 0, i 1, eq_ix2 i⟩
  obtain rfl : R' = R := Fin.ext h0
  obtain rfl : C' = C := Fin.ext h1
  rfl

/-! ## What is written back, and the whole result -/

/-- Two functions on a 1024 × 1024 block agree when they agree at every (r, c). -/
theorem blk_ext (f g : S1024x1024.Idx → EReal) (h : ∀ r c : Fin 1024, f (ix2 r c) = g (ix2 r c)) : f = g :=
  funext fun j => by rw [eq_ix2 j]; exact h _ _

/-- At a point with k = 3 the block written back is block (i, j) of a · bᵀ. -/
theorem flushed_eq (c : Dev nD) (t : Fin cfg0.N) (hf : (cfg0.win 2).flush t = true) :
    (R0.dat (F := Ideal) V c).flushed 2 t
      = ((cfg0.win 2).blk t).view.read (Elt Ideal) (Cert.Spec.prep (V c main_v32) (V c main_v33)) := by
  have h3 : t.val % 4 = 3 := (flush0_2 t).mp hf
  have hN : cfg0.N = 64 := N_0
  have ht := t.isLt
  obtain ⟨-, -, -, -, e0, e1⟩ := idx_facts t
  show (cfg0.win 2).cut (grid0.coords t) ((R0.dat (F := Ideal) V c).after 2 t) = _
  rw [R0.out_last V c t h3]
  refine blk_ext _ _ fun r c' => ?_
  show k0_pay3 (F := Ideal) (R0.accAt V c t.val t.isLt) (ix2 r c')
    = Cert.Spec.prep (V c main_v32) (V c main_v33) (((cfg0.win 2).blk t).view.emb (ix2 r c'))
  rw [pay3_at, acc_inv V c t.val t.isLt r c', h3]
  refine (psum_four _ _ _ _).trans (prep_at _ _ _ _ _ ?_ ?_).symm
  · show win0_2.index t (0 : Fin 2) * 1024 + 1 * r.val = _
    rw [at4_val _ (by omega)]; omega
  · show win0_2.index t (1 : Fin 2) * 1024 + 1 * c'.val = _
    rw [at4_val _ (by omega)]; omega

/-- Every entry (R, C) of the result lies in the block written back at the point i = R / 1024, j = C / 1024, k = 3. -/
theorem cover (i : S4096x4096.Idx) :
    ∃ t : Fin cfg0.N, (cfg0.win 2).flush t = true ∧ i ∈ ((cfg0.win 2).blk t).view.set := by
  have hN : cfg0.N = 64 := N_0
  have h0 : (i 0).val < 4096 := (i 0).isLt
  have h1 : (i 1).val < 4096 := (i 1).isLt
  obtain ⟨t, ht⟩ : ∃ t : Fin cfg0.N, t.val = (i 0).val / 1024 * 16 + (i 1).val / 1024 * 4 + 3 := ⟨⟨_, by omega⟩, rfl⟩
  obtain ⟨-, -, -, -, e0, e1⟩ := idx_facts t
  refine ⟨t, (flush0_2 t).mpr (by omega), ?_⟩
  show i ∈ ((View.whole main_v34).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- After the region the result array holds a · bᵀ of the two operands as the region found them. -/
theorem final (c : Dev nD) :
    (R0.dat (F := Ideal) V c).arrAt 2 cfg0.N = Cert.Spec.prep (V c main_v32) (V c main_v33) :=
  (R0.dat (F := Ideal) V c).arrAt_eq_of_cover 2 (Cert.Spec.prep (V c main_v32) (V c main_v33))
    (fun t hf => flushed_eq V c t hf) cover

end Cert.KernelIdeal.R0V

end
-- ==== Proof.KI.R1Value.lean ====
/-
  The value leg of kernel region 1 at the ideal instance: a K-blocked matrix product with bias.

  The region walks a grid of 8 × 2 × 8 points, t = 16·i + 8·j + k. At point (i, j, k) it reads the 1024 × 512 block
  (i, k) of x, the 2048 × 512 block (j, k) of w and the 1 × 2048 block (0, j) of the bias row. A 1024 × 2048
  accumulator is zeroed at k = 0 and gains, at every k, the product of the x block with the transposed w block:
  entry (r, o) gains  Σ_q x[1024 i + r, 512 k + q] · w[2048 j + o, 512 k + q].  At k = 7 the accumulator plus the
  bias row (broadcast over the rows) is written back as block (i, j) of the result.

  Over the extended reals every operation is exact, so after the k-th step the accumulator entry is the partial sum
  over the first 512 (k + 1) columns; at k = 7 the eight block sums join to the one sum over all 4096 columns, which is
  `Spec.lin x w bias`. Only commutativity and associativity of + are used.
-/
import proofs.«423795_j79723182949081_2_alg».proof.Proof.KI.R1
import proofs.«423795_j79723182949081_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R1V

open Cert.KernelIdeal Cert.KernelIdeal.Gen
open Idealize.ShloMosaic Idealize.ShloMosaic.TcCoe Idealize.ShloMosaic.ValueIdx Idealize.SL.Sem
open Idealize.ShloMosaic.Pipeline (Dat)

/-! ## The payloads read at an entry -/

/-- The dimension numbers of the block product: both operands contract their column axis. -/
abbrev dotD := dot_S1024x512_S2048x512_S1024x2048_1_1_0_0_n_n

theorem lhs_row (i : S1024x2048.Idx) (q : dotD.contr.Idx) : (dotD.lhsIdx i q 0).val = (i 0).val := by
  unfold DotDims.lhsIdx
  rw [dif_neg (show ¬(0 : Fin S1024x512.rank) ∈ dotD.lhsBatch by decide), dif_pos (show (0 : Fin S1024x512.rank) ∈ dotD.lhsNonContracting by decide)]
  rfl
theorem lhs_col (i : S1024x2048.Idx) (q : dotD.contr.Idx) : (dotD.lhsIdx i q 1).val = (q ⟨0, by decide⟩).val :=
  dotD.lhsIdx_val_of_single rfl i q
theorem rhs_row (i : S1024x2048.Idx) (q : dotD.contr.Idx) : (dotD.rhsIdx i q 0).val = (i 1).val := by
  unfold DotDims.rhsIdx
  rw [dif_neg (show ¬(0 : Fin S2048x512.rank) ∈ dotD.rhsBatch by decide), dif_pos (show (0 : Fin S2048x512.rank) ∈ dotD.rhsNonContracting by decide)]
  rfl
theorem rhs_col (i : S1024x2048.Idx) (q : dotD.contr.Idx) : (dotD.rhsIdx i q 1).val = (q ⟨0, by decide⟩).val :=
  dotD.rhsIdx_val_of_single rfl i q

/-- The block product into the zero accumulator, at entry (r, o): the sum over the 512 columns of x[r, q] · w[o, q]. -/
theorem matmul_zero_apply (x : FVec Ideal S1024x512 .bf16) (w : FVec Ideal S2048x512 .bf16) (r : Fin 1024) (o : Fin 2048) :
    matmul dotD none x w (constant S1024x2048 .f32 0x00000000#32) (ix2 r o) = ∑ q : Fin 512, x (ix2 r q) * w (ix2 o q) := by
  simp only [matmul]
  rw [Ideal.matmul_constant_zero_apply, ← Equiv.sum_comp (ValueIdx.contrEquiv1 dotD 512 rfl rfl).symm]
  refine Finset.sum_congr rfl fun k _ => ?_
  have hk := ValueIdx.contrEquiv1_symm_val dotD 512 rfl rfl k
  have el : dotD.lhsIdx (ix2 r o) ((ValueIdx.contrEquiv1 dotD 512 rfl rfl).symm k) = ix2 r k := funext fun a => Fin.ext (by
    match a with
    | ⟨0, _⟩ => exact lhs_row _ _
    | ⟨1, _⟩ => exact (lhs_col _ _).trans hk)
  have er : dotD.rhsIdx (ix2 r o) ((ValueIdx.contrEquiv1 dotD 512 rfl rfl).symm k) = ix2 o k := funext fun a => Fin.ext (by
    match a with
    | ⟨0, _⟩ => exact rhs_row _ _
    | ⟨1, _⟩ => exact (rhs_col _ _).trans hk)
  rw [el, er]

/-- The reset payload is the zero block. -/
theorem pay1_apply (r : Fin 1024) (o : Fin 2048) : (k1_pay1 (F := Ideal)) (ix2 r o) = 0 := by
  unfold k1_pay1
  simp only [shapeCast_self]
  exact Ideal.ofBits_zero_f32

/-- The step payload at entry (r, o): the accumulator there plus the block product's sum (the narrowing of x is the
    identity on extended reals). -/
theorem pay2_apply (x : Vec Ideal S1024x512 .f32) (w : Vec Ideal S2048x512 .bf16) (acc : Vec Ideal S1024x2048 .f32)
    (r : Fin 1024) (o : Fin 2048) :
    k1_pay2 (F := Ideal) x w acc (ix2 r o) = acc (ix2 r o) + ∑ q : Fin 512, x (ix2 r q) * w (ix2 o q) := by
  unfold k1_pay2
  simp only [shapeCast_self]
  refine (addf_apply _ _ _).trans ?_
  exact congrArg (acc (ix2 r o) + ·) (matmul_zero_apply _ w r o)

/-- The closing payload at entry (r, o): the accumulator there plus the bias row at column o. -/
theorem pay3_apply (acc : Vec Ideal S1024x2048 .f32) (b : Vec Ideal S1x2048 .f32) (r : Fin 1024) (o : Fin 2048) :
    k1_pay3 (F := Ideal) acc b (ix2 r o) = acc (ix2 r o) + b (ix2 (0 : Fin 1) o) := by
  unfold k1_pay3
  simp only [shapeCast_self]
  refine (addf_apply _ _ _).trans ?_
  exact congrArg (acc (ix2 r o) + ·) (broadcastTo_1b_ab_apply b _ r o)

/-! ## The blocks as pieces of the arrays -/

section Region

variable (V : (c : Dev nD) → (b : Ref sig .tc) → Buf (Elt Ideal) ((c : Thread nD τ).loc b))

/-- The three input arrays and, at a grid point, their blocks, each at its literal type. -/
abbrev xarr (c : Dev nD) : S8192x4096.Idx → EReal := V c main_v35
abbrev warr (c : Dev nD) : S4096x4096.Idx → EReal := V c main_v34
abbrev barr (c : Dev nD) : S1x4096.Idx → EReal := V c main_v36
abbrev xblk (c : Dev nD) (t : Fin cfg1.N) : Vec Ideal S1024x512 .f32 := R1.iblk V c 0 t
abbrev wblk (c : Dev nD) (t : Fin cfg1.N) : Vec Ideal S2048x512 .bf16 := R1.iblk V c 1 t
abbrev bblk (c : Dev nD) (t : Fin cfg1.N) : Vec Ideal S1x2048 .f32 := R1.iblk V c 2 t

/-- The block indices over the grid, t = 16·i + 8·j + k: x's block is (i, k), w's (j, k), the bias row's (0, j), the
    result's (i, j). -/
theorem idx_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

/-- x's block at point t, entry (r, q), is x[1024·(t/16) + r, 512·(t%8) + q]. -/
theorem xblk_apply (c : Dev nD) (t : Fin cfg1.N) (r : Fin 1024) (q : Fin 512) (R : Fin 8192) (Q : Fin 4096)
    (hR : R.val = t.val / 16 * 1024 + r.val) (hQ : Q.val = t.val % 8 * 512 + q.val) :
    xblk V c t (ix2 r q) = xarr V c (ix2 R Q) := by
  obtain ⟨e0, e1, -⟩ := idx_facts t
  unfold xblk xarr R1.iblk
  rw [View.read_apply]
  show V c main_v35 _ = V c main_v35 _
  congr 1
  funext a
  apply Fin.ext
  match a with
  | ⟨0, _⟩ => show win1_0.index t 0 * 1024 + 1 * r.val = R.val; rw [e0, hR]; omega
  | ⟨1, _⟩ => show win1_0.index t 1 * 512 + 1 * q.val = Q.val; rw [e1, hQ]; omega

/-- w's block at point t, entry (o, q), is w[2048·((t/8)%2) + o, 512·(t%8) + q]. -/
theorem wblk_apply (c : Dev nD) (t : Fin cfg1.N) (o : Fin 2048) (q : Fin 512) (C : Fin 4096) (Q : Fin 4096)
    (hC : C.val = t.val / 8 % 2 * 2048 + o.val) (hQ : Q.val = t.val % 8 * 512 + q.val) :
    wblk V c t (ix2 o q) = warr V c (ix2 C Q) := by
  obtain ⟨-, -, e0, e1, -⟩ := idx_facts t
  unfold wblk warr R1.iblk
  rw [View.read_apply]
  show V c main_v34 _ = V c main_v34 _
  congr 1
  funext a
  apply Fin.ext
  match a with
  | ⟨0, _⟩ => show win1_1.index t 0 * 2048 + 1 * o.val = C.val; rw [e0, hC]; omega
  | ⟨1, _⟩ => show win1_1.index t 1 * 512 + 1 * q.val = Q.val; rw [e1, hQ]; omega

/-- The bias block at point t, entry (0, o), is bias[0, 2048·((t/8)%2) + o]. -/
theorem bblk_apply (c : Dev nD) (t : Fin cfg1.N) (o : Fin 2048) (C : Fin 4096)
    (hC : C.val = t.val / 8 % 2 * 2048 + o.val) :
    bblk V c t (ix2 (0 : Fin 1) o) = barr V c (ix2 (0 : Fin 1) C) := by
  obtain ⟨-, -, -, -, e0, e1, -⟩ := idx_facts t
  unfold bblk barr R1.iblk
  rw [View.read_apply]
  show V c main_v36 _ = V c main_v36 _
  congr 1
  funext a
  apply Fin.ext
  match a with
  | ⟨0, _⟩ => show win1_2.index t 0 * 1 + 1 * (0 : Fin 1).val = (0 : Fin 1).val; rw [e0]; rfl
  | ⟨1, _⟩ => show win1_2.index t 1 * 2048 + 1 * o.val = C.val; rw [e1, hC]; omega

/-! ## The accumulator as a partial sum -/

/-- The product terms of entry (R, C) of x·wᵀ along the contracted axis, as a function of every natural (zero past the
    last column; those values are never read). -/
def term (X : S8192x4096.Idx → EReal) (W : S4096x4096.Idx → EReal) (R : Fin 8192) (C : Fin 4096) (q : ℕ) : EReal :=
  if h : q < 4096 then X (ix2 R ⟨q, h⟩) * W (ix2 C ⟨q, h⟩) else 0

/-- The block product's sum at point t, entry (r, o): the 512 terms of entry (R, C) starting at column 512·(t%8). -/
theorem blocksum_eq (c : Dev nD) (t : Fin cfg1.N) (r : Fin 1024) (o : Fin 2048) (R : Fin 8192) (C : Fin 4096)
    (hR : R.val = t.val / 16 * 1024 + r.val) (hC : C.val = t.val / 8 % 2 * 2048 + o.val) :
    ∑ q : Fin 512, xblk V c t (ix2 r q) * wblk V c t (ix2 o q)
      = ∑ q ∈ Finset.range 512, term (xarr V c) (warr V c) R C (t.val % 8 * 512 + q) := by
  rw [Finset.sum_range]
  refine Finset.sum_congr rfl fun q _ => ?_
  have hq : t.val % 8 * 512 + q.val < 4096 := by have := q.isLt; omega
  unfold term
  rw [dif_pos hq, xblk_apply V c t r q R ⟨_, hq⟩ hR rfl, wblk_apply V c t o q C ⟨_, hq⟩ hC rfl]

/-- At the first point of a run of eight the accumulator entry is the first block's sum. -/
theorem acc_first_apply (c : Dev nD) (n : ℕ) (h : n < cfg1.N) (h8 : n % 8 = 0) (r : Fin 1024) (o : Fin 2048) (R : Fin 8192) (C : Fin 4096)
    (hR : R.val = n / 16 * 1024 + r.val) (hC : C.val = n / 8 % 2 * 2048 + o.val) :
    (R1.accAt V c n h : Vec Ideal S1024x2048 .f32) (ix2 r o)
      = ∑ q ∈ Finset.range ((n % 8 + 1) * 512), term (xarr V c) (warr V c) R C q := by
  have e := R1.acc_first V c ⟨n, h⟩ h8
  refine (congrFun e (ix2 r o)).trans ?_
  refine (pay2_apply (xblk V c ⟨n, h⟩) (wblk V c ⟨n, h⟩) (k1_pay1 (F := Ideal)) r o).trans ?_
  rw [pay1_apply r o, zero_add, blocksum_eq V c ⟨n, h⟩ r o R C hR hC]
  rw [show (n % 8 + 1) * 512 = 512 by omega]
  refine Finset.sum_congr rfl fun q _ => ?_
  congr 1
  show n % 8 * 512 + q = q
  omega

/-- THE INVARIANT: after point n = 16·i + 8·j + k the accumulator entry (r, o) is the sum of the first 512·(k + 1) terms of
    entry (1024·i + r, 2048·j + o) of x·wᵀ. -/
theorem acc_apply (c : Dev nD) (n : ℕ) : ∀ (h : n < cfg1.N) (r : Fin 1024) (o : Fin 2048) (R : Fin 8192) (C : Fin 4096),
    R.val = n / 16 * 1024 + r.val → C.val = n / 8 % 2 * 2048 + o.val →
    (R1.accAt V c n h : Vec Ideal S1024x2048 .f32) (ix2 r o)
      = ∑ q ∈ Finset.range ((n % 8 + 1) * 512), term (xarr V c) (warr V c) R C q := by
  induction n with
  | zero => intro h r o R C hR hC; exact acc_first_apply V c 0 h rfl r o R C hR hC
  | succ m ih =>
    intro h r o R C hR hC
    by_cases h8 : (m + 1) % 8 = 0
    · exact acc_first_apply V c (m + 1) h h8 r o R C hR hC
    · have hm : m < cfg1.N := Nat.lt_of_succ_lt h
      have e := R1.acc_next V c ⟨m + 1, h⟩ h8
      refine (congrFun e (ix2 r o)).trans ?_
      refine (pay2_apply (xblk V c ⟨m + 1, h⟩) (wblk V c ⟨m + 1, h⟩) (R1.accAt V c ((⟨m + 1, h⟩ : Fin cfg1.N).val - 1) (Nat.lt_of_le_of_lt (Nat.sub_le _ _) (⟨m + 1, h⟩ : Fin cfg1.N).isLt)) r o).trans ?_
      have e1 : (R1.accAt V c ((⟨m + 1, h⟩ : Fin cfg1.N).val - 1) (Nat.lt_of_le_of_lt (Nat.sub_le _ _) (⟨m + 1, h⟩ : Fin cfg1.N).isLt) : Vec Ideal S1024x2048 .f32) (ix2 r o)
          = ∑ q ∈ Finset.range ((m % 8 + 1) * 512), term (xarr V c) (warr V c) R C q :=
        ih hm r o R C (by omega) (by omega)
      rw [e1, blocksum_eq V c ⟨m + 1, h⟩ r o R C hR hC]
      rw [show ((m + 1) % 8 + 1) * 512 = (m % 8 + 1) * 512 + 512 by omega, Finset.sum_range_add]
      congr 1
      refine Finset.sum_congr rfl fun q _ => ?_
      congr 1
      show (m + 1) % 8 * 512 + q = (m % 8 + 1) * 512 + q
      omega

/-- At the last point of a run the partial sum is the whole sum over the 4096 columns. -/
theorem term_sum_all (X : S8192x4096.Idx → EReal) (W : S4096x4096.Idx → EReal) (R : Fin 8192) (C : Fin 4096) :
    ∑ q ∈ Finset.range 4096, term X W R C q = ∑ k : Fin 4096, X (ix2 R k) * W (ix2 C k) := by
  rw [Finset.sum_range]
  refine Finset.sum_congr rfl fun q _ => ?_
  unfold term
  rw [dif_pos q.isLt]

/-! ## From the blocks to the array -/

/-- What the last point of a run writes back, at entry (r, o) of block (i, j): entry (1024·i + r, 2048·j + o) of
    x·wᵀ + bias. -/
theorem out_apply (c : Dev nD) (t : Fin cfg1.N) (h7 : t.val % 8 = 7) (r : Fin 1024) (o : Fin 2048) (R : Fin 8192) (C : Fin 4096)
    (hR : R.val = t.val / 16 * 1024 + r.val) (hC : C.val = t.val / 8 % 2 * 2048 + o.val) :
    k1_pay3 (F := Ideal) (R1.accAt V c t.val t.isLt) (bblk V c t) (ix2 r o)
      = Cert.Spec.lin (xarr V c) (warr V c) (barr V c) (ix2 R C) := by
  refine (pay3_apply (R1.accAt V c t.val t.isLt) (bblk V c t) r o).trans ?_
  rw [acc_apply V c t.val t.isLt r o R C hR hC, bblk_apply V c t o C hC]
  rw [show (t.val % 8 + 1) * 512 = 4096 by omega, term_sum_all]
  rfl

/-- WHAT A POINT WRITES BACK is its block of x·wᵀ + bias. -/
theorem flushed_eq (c : Dev nD) (t : Fin cfg1.N) (hf : (cfg1.win 3).flush t = true) :
    (R1.dat (F := Ideal) V c).flushed 3 t
      = ((cfg1.win 3).blk t).view.read (Elt Ideal) (Cert.Spec.lin (xarr V c) (warr V c) (barr V c)) := by
  have h7 : t.val % 8 = 7 := (flush1_3 t).mp hf
  obtain ⟨-, -, -, -, -, -, e0, e1⟩ := idx_facts t
  have hN : t.val < 128 := lt_of_lt_of_eq t.isLt N_1
  show (cfg1.win 3).cut (grid1.coords t) ((R1.dat (F := Ideal) V c).after 3 t) = _
  rw [R1.out_last V c t h7]
  funext j
  have hj0 : (j 0).val < 1024 := (j 0).isLt
  have hj1 : (j 1).val < 2048 := (j 1).isLt
  rw [View.read_apply]
  have eL : (cfg1.win 3).xinj (grid1.coords t) j = ix2 (⟨(j 0).val, hj0⟩ : Fin 1024) (⟨(j 1).val, hj1⟩ : Fin 2048) :=
    funext fun a => Fin.ext (by
      match a with
      | ⟨0, _⟩ => rfl
      | ⟨1, _⟩ => rfl)
  have eR : ((cfg1.win 3).blk t).view.emb j
      = ix2 (⟨t.val / 16 * 1024 + (j 0).val, by omega⟩ : Fin 8192) (⟨t.val / 8 % 2 * 2048 + (j 1).val, by omega⟩ : Fin 4096) :=
    funext fun a => Fin.ext (by
      match a with
      | ⟨0, _⟩ => show win1_3.index t 0 * 1024 + 1 * (j 0).val = t.val / 16 * 1024 + (j 0).val; rw [e0]; omega
      | ⟨1, _⟩ => show win1_3.index t 1 * 2048 + 1 * (j 1).val = t.val / 8 % 2 * 2048 + (j 1).val; rw [e1]; omega)
  show k1_pay3 (F := Ideal) (R1.accAt V c t.val t.isLt) (bblk V c t) ((cfg1.win 3).xinj (grid1.coords t) j)
    = Cert.Spec.lin (xarr V c) (warr V c) (barr V c) (((cfg1.win 3).blk t).view.emb j)
  rw [eL, eR]
  exact out_apply V c t h7 _ _ _ _ rfl rfl

/-- Every entry (R, C) of the result lies in the block written back at the point i = R / 1024, j = C / 2048, k = 7. -/
theorem cover (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  obtain ⟨t, ht⟩ : ∃ t : Fin cfg1.N, t.val = (i 0).val / 1024 * 16 + (i 1).val / 2048 * 8 + 7 :=
    ⟨⟨(i 0).val / 1024 * 16 + (i 1).val / 2048 * 8 + 7, by rw [hN]; omega⟩, rfl⟩
  obtain ⟨-, -, -, -, -, -, e0, e1⟩ := idx_facts t
  refine ⟨t, (flush1_3 t).mpr (by rw [ht]; omega), ?_⟩
  show i ∈ ((View.whole main_v37).slice (win1_3.rect t)).set
  rw [View.set_slice_whole, Rect.mem_set_unit]
  intro a
  match a with
  | ⟨0, _⟩ => show win1_3.index t 0 * 1024 ≤ (i 0).val ∧ (i 0).val < win1_3.index t 0 * 1024 + 1024; rw [e0, ht]; omega
  | ⟨1, _⟩ => show win1_3.index t 1 * 2048 ≤ (i 1).val ∧ (i 1).val < win1_3.index t 1 * 2048 + 2048; rw [e1, ht]; omega

end Region

/-- THE RESULT ARRAY after the region: x·wᵀ + bias of the three arrays the region finds. -/
theorem final (V : (c : Dev nD) → (b : Ref sig .tc) → Buf (Elt Ideal) ((c : Thread nD τ).loc b)) (c : Dev nD) :
    (R1.dat (F := Ideal) V c).arrAt 3 cfg1.N = Cert.Spec.lin (V c main_v35) (V c main_v34) (V c main_v36) :=
  (R1.dat (F := Ideal) V c).arrAt_eq_of_cover 3 (Cert.Spec.lin (V c main_v35) (V c main_v34) (V c main_v36))
    (fun t hf => flushed_eq V c t hf) cover

end Cert.KernelIdeal.R1V

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.KI.HostValue.lean ====
/-
  What the host operations of the kernel program leave, before its first kernel region, in the two arrays that region
  stages, at the ideal instance.

  * `main_v29` after the first stretch is the dequantised weight: the same chain of operations of the three packed
    arguments that the reference applies.
  * `main_v32` and `main_v33` are takes along axis 0 (rows), of the dequantised weight at the index vector `main_arg7`
    and of `main_arg5` at `main_arg6`. A take wraps a negative index word `p` to `p + 4096`, masks the rows whose
    wrapped word falls outside [0, 4095] to NaN, and gathers the row of the clamped word. The precondition bounds every
    index word by −4096 ≤ p < 4096, so the wrapped word lies in [0, 4095], the mask is everywhere 1 and the take is the
    plain row gather; the rounding to bf16 that follows is the identity over the extended reals.
-/
import proofs.«423795_j79723182949081_2_alg».proof.Defs
import proofs.«423795_j79723182949081_2_alg».proof.Proof.Gen.KernelIdeal.Regions
import proofs.«423795_j79723182949081_2_alg».proof.Proof.Gen.ReferenceIdeal.Read
import proofs.«423795_j79723182949081_2_alg».proof.Proof.Gen.Pre_finite_inputs
import proofs.«423795_j79723182949081_2_alg».proof.Proof.LibGatherScatter
import proofs.«423795_j79723182949081_2_alg».proof.Proof.Spec
import Idealize.ShloMosaic.Lib.ReduceAll
import Idealize.ShloMosaic.Lib.StableHlo.Predicate
import Idealize.ShloMosaic.Lib.ValueIdx

set_option maxRecDepth 16384

noncomputable section

namespace Cert.KernelIdeal.HostV

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## Index words -/

/-- A left fold by `and` from 1 over words that are all 1 stays 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi (1#1 : BitVec 1) 1#1 = 1#1 from by decide]
    exact foldl_andi_one x hx l

/-- An `and`-reduce, from 1, of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x hx _

/-- The wrapped index word: a negative word has the extent 4096 added. -/
def wrapW (w : BitVec 32) : BitVec 32 := Scalar.select (IntOp.cmpi .slt w 0#32) (IntOp.addi w 4096#32) w

/-- A word in [−4096, 4096) wraps into [0, 4095]: a negative one moves up by 4096 without overflow, the others stay. -/
theorem wrapW_range (w : BitVec 32) (h0 : (-4096 : Int) ≤ w.toInt) (h1 : w.toInt < 4096) :
    0 ≤ (wrapW w).toInt ∧ (wrapW w).toInt ≤ 4095 := by
  unfold wrapW
  by_cases hneg : w.toInt < 0
  · have hc : IntOp.cmpi .slt w 0#32 = 1#1 := IntOp.cmpi_slt.2 (by rw [show (0#32 : BitVec 32).toInt = 0 from by decide]; exact hneg)
    rw [hc, select_one]
    have hadd : (IntOp.addi w 4096#32).toInt = w.toInt + 4096 := by
      show (w + 4096#32).toInt = _
      rw [BitVec.toInt_add, show (4096#32 : BitVec 32).toInt = 4096 from by decide]
      rw [Int.bmod_eq_of_le (by omega) (by omega)]
    rw [hadd]; omega
  · have hc : IntOp.cmpi .slt w 0#32 = 0#1 := eq_zero_of_ne_one (fun h => hneg (by
      have := IntOp.cmpi_slt.1 h; rwa [show (0#32 : BitVec 32).toInt = 0 from by decide] at this))
    rw [hc, select_zero]; omega

/-! ## The take as one function of the operand and the index vector -/

/-- The index vector with its negative words wrapped: word `p` becomes `p + 4096` when `p < 0`. -/
def wrapK (p : IVec S4096 32) : IVec S4096 32 :=
  select (cmpi .slt p (broadcastInDim S4096 ![] bcast_S_S4096 (constantI S_ 32 0#32)))
    (addi p (broadcastInDim S4096 ![] bcast_S_S4096 (constantI S_ 32 4096#32))) p

/-- The wrapped index vector as the [4096, 1] column of start indices the gather takes. -/
def colK (p : IVec S4096 32) : IVec S4096x1 32 :=
  broadcastInDim S4096x1 ![0] bcast_S4096_S4096x1_0 (wrapK p)

/-- Per row, whether the wrapped word lies in [0, 4095]: the two comparisons and-ed, and-reduced over the unit axis. -/
def maskK (p : IVec S4096 32) : IVec S4096 1 :=
  Host.reduce IntOp.andi
    (andi (cmpi .sge (colK p) (broadcastInDim S4096x1 ![] bcast_S_S4096x1 (constantI S_ 32 0#32)))
      (cmpi .sle (colK p) (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- A take of rows at its default mode: the rows gathered at the column of wrapped words, a row whose word is out of
    range replaced by NaN. -/
def takeK (x : FVec Ideal S4096x4096 .f32) (p : IVec S4096 32) : FVec Ideal S4096x4096 .f32 :=
  select (broadcastInDim S4096x4096 ![0] bcast_S4096_S4096x4096_0 (maskK p))
    (Host.gather gather_S4096x4096_S4096x1_S4096x4096_1_0_n_n_0_1_14096 x (colK p))
    (broadcastInDim S4096x4096 ![] bcast_S_S4096x4096 (constant (F := Ideal) S_ .f32 0x7FC00000#32))

/-- The wrapped vector at row `e` is the wrapped word of that row. -/
theorem wrapK_apply (p : IVec S4096 32) (e : Fin 4096) : wrapK p (ix1 e) = wrapW (p (ix1 e)) := rfl

/-- The column of start indices at `(e, 0)` is the wrapped word of row `e`. -/
theorem colK_apply (p : IVec S4096 32) (e : Fin 4096) : colK p (ix2 e (0 : Fin 1)) = wrapW (p (ix1 e)) := by
  unfold colK
  rw [← wrapK_apply]
  generalize wrapK p = y
  exact broadcastInDim_apply _ bcast_S4096_S4096x1_0 y (ix2 e (0 : Fin 1)) (ix1 e) (fun a => match a with
    | ⟨0, _⟩ => by show e.val = if (4096 : Nat) = 1 then 0 else e.val; rw [if_neg (by decide)])

/-- With every index word in [−4096, 4096) the mask is 1 on every row. -/
theorem maskK_one (p : IVec S4096 32)
    (hp : ∀ e : Fin 4096, (-4096 : Int) ≤ (p (ix1 e)).toInt ∧ (p (ix1 e)).toInt < 4096) (j : S4096.Idx) :
    maskK p j = 1#1 := by
  unfold maskK
  refine reduce_andi_ones _ _ _ _ (fun i => ?_) (fun _ => rfl) j
  obtain ⟨e, z, rfl⟩ : ∃ (e : Fin 4096) (z : Fin 1), i = ix2 e z := ⟨i 0, i 1, eq_ix2 i⟩
  obtain rfl : z = 0 := Subsingleton.elim _ _
  show IntOp.andi (IntOp.cmpi .sge (colK p (ix2 e (0 : Fin 1))) 0#32) (IntOp.cmpi .sle (colK p (ix2 e (0 : Fin 1))) 4095#32) = 1#1
  rw [colK_apply]
  obtain ⟨h0, h1⟩ := wrapW_range _ (hp e).1 (hp e).2
  refine IntOp.andi_eq_one.2 ⟨IntOp.cmpi_sge.2 ?_, IntOp.cmpi_sle.2 ?_⟩
  · rw [show (0#32 : BitVec 32).toInt = 0 from by decide]; exact h0
  · rw [show (4095#32 : BitVec 32).toInt = 4095 from by decide]; exact h1

/-- THE TAKE UNDER THE INDEX RANGE: no row is masked, so the take is the gather of the rows the wrapped words name. -/
theorem takeK_eq (x : FVec Ideal S4096x4096 .f32) (p : IVec S4096 32)
    (hp : ∀ e : Fin 4096, (-4096 : Int) ≤ (p (ix1 e)).toInt ∧ (p (ix1 e)).toInt < 4096) :
    takeK x p = Cert.Spec.takeRows x (wrapK p) := by
  funext i
  obtain ⟨e, q, rfl⟩ : ∃ (e : Fin 4096) (q : Fin 4096), i = ix2 e q := ⟨i 0, i 1, eq_ix2 i⟩
  unfold takeK
  rw [select_apply]
  have hm : broadcastInDim S4096x4096 ![0] bcast_S4096_S4096x4096_0 (maskK p) (ix2 e q) = 1#1 := by
    unfold broadcastInDim; exact maskK_one p hp _
  rw [hm, select_one]
  show Host.gather (Cert.Proof.GS.gathD 4096 4096 4096 _) x (colK p) (ix2 e q) = _
  rw [Cert.Proof.GS.gather_gathD_apply (by decide), colK_apply]
  rfl

/-! ## The precondition -/

/-- THE PRECONDITION DECODED at row `e`: the index words of `main_arg6` and of `main_arg7` lie in [−4096, 4096). The
    predicate is a conjunction of `and`-reductions over whole arrays; the last two reduce, for each of the two vectors,
    the pair of signed comparisons of its words against the constants −4096 and 4096. -/
theorem idx_range (hpre : Cert.Pre_KernelIdeal m) (c : Dev nD) (e : Fin 4096) :
    ((-4096 : Int) ≤ (m ((c : Thread nD τ).loc main_arg6) (ix1 e)).toInt ∧ (m ((c : Thread nD τ).loc main_arg6) (ix1 e)).toInt < 4096)
    ∧ ((-4096 : Int) ≤ (m ((c : Thread nD τ).loc main_arg7) (ix1 e)).toInt ∧ (m ((c : Thread nD τ).loc main_arg7) (ix1 e)).toInt < 4096) := by
  have e0 := congrFun (hpre c) ix0
  dsimp only [Cert.Pre_finite_inputs.fn, Cert.Pre_finite_inputs.fn_part1] at e0
  obtain ⟨h25, h31⟩ := IntOp.andi_eq_one.1 e0
  obtain ⟨-, h24⟩ := IntOp.andi_eq_one.1 h25
  haveI : Subsingleton Cert.Pre_finite_inputs.S_.Idx := ⟨fun a b => funext fun d => d.elim0⟩
  have a6 := Host.reduce_andi_all _ _ _ _ _ h24 (ix1 e)
  have a7 := Host.reduce_andi_all _ _ _ _ _ h31 (ix1 e)
  obtain ⟨a6l, a6u⟩ := IntOp.andi_eq_one.1 a6
  obtain ⟨a7l, a7u⟩ := IntOp.andi_eq_one.1 a7
  have b6l := IntOp.cmpi_sge.1 a6l
  have b6u := IntOp.cmpi_slt.1 a6u
  have b7l := IntOp.cmpi_sge.1 a7l
  have b7u := IntOp.cmpi_slt.1 a7u
  have kl : (4294963200#32 : BitVec 32).toInt = -4096 := by decide
  have ku : (4096#32 : BitVec 32).toInt = 4096 := by decide
  exact ⟨⟨kl ▸ b6l, ku ▸ b6u⟩, ⟨kl ▸ b7l, ku ▸ b7u⟩⟩

/-! ## The stretches, from any contents -/

set_option maxHeartbeats 4000000 in
/-- The first take's stretch, from any contents: `main_v30` is the take of `main_v29` at `main_arg7`. -/
theorem take0_after (W : Valuation τ sig (Elt Ideal)) :
    StableHlo.after (hostOps0_1 (F := Ideal)) W (Proc.devRef .tc main_v30)
      = takeK (W (Proc.devRef .tc main_v29)) (W (Proc.devRef .tc main_arg7)) := by
  dsimp only [Gen.hostOps0_1]
  after_results_simp
  rfl

set_option maxHeartbeats 4000000 in
/-- The second take's stretch, from any contents: `main_v31` is the take of `main_arg5` at `main_arg6`. -/
theorem take1_after (W : Valuation τ sig (Elt Ideal)) :
    StableHlo.after (hostOps0_2 (F := Ideal)) W (Proc.devRef .tc main_v31)
      = takeK (W (Proc.devRef .tc main_arg5)) (W (Proc.devRef .tc main_arg6)) := by
  dsimp only [Gen.hostOps0_2]
  after_results_simp
  rfl

/-- The roundings' stretch, from any contents: `main_v32` is `main_v30` rounded to bf16. -/
theorem trunc32_after (W : Valuation τ sig (Elt Ideal)) :
    StableHlo.after (hostOps0_3 (F := Ideal)) W (Proc.devRef .tc main_v32)
      = truncf (F := Ideal) .bf16 (W (Proc.devRef .tc main_v30) : FVec Ideal S4096x4096 .f32) bitsLt_bf16_f32 := by
  dsimp only [Gen.hostOps0_3]
  after_results

/-- The roundings' stretch, from any contents: `main_v33` is `main_v31` rounded to bf16. -/
theorem trunc33_after (W : Valuation τ sig (Elt Ideal)) :
    StableHlo.after (hostOps0_3 (F := Ideal)) W (Proc.devRef .tc main_v33)
      = truncf (F := Ideal) .bf16 (W (Proc.devRef .tc main_v31) : FVec Ideal S4096x4096 .f32) bitsLt_bf16_f32 := by
  dsimp only [Gen.hostOps0_3]
  after_results

/-! ## The arrays the first kernel region stages -/

set_option maxHeartbeats 1000000 in
/-- The dequantised weight: the first stretch computes `main_v29` from the three packed arguments by the chain of
    operations the reference names `val_main_v29`. -/
theorem wt_eq (c : Dev nD) : Gen.V1 m c main_v29
    = Cert.ReferenceIdeal.Read.val_main_v29 (F := Ideal) (m ((c : Thread nD τ).loc main_arg1)) (m ((c : Thread nD τ).loc main_arg2)) (m ((c : Thread nD τ).loc main_arg3)) := by
  dsimp only [Gen.V1, Gen.hostOps0]
  after_results_simp
  rfl

/-- The first staged array: the rows of the dequantised weight at the wrapped words of `main_arg7`. The stretches in
    turn: the rounding (the identity here), the second take (which does not write `main_v30`), the first take over the
    first stretch's contents, of which it reads `main_v29` and the argument `main_arg7`, the latter as launched. -/
theorem v32_eq (hpre : Cert.Pre_KernelIdeal m) (c : Dev nD) : Gen.V4 m c main_v32
    = Cert.Spec.takeRows (Gen.V1 m c main_v29) (Cert.ReferenceIdeal.Read.val_main_v43 (F := Ideal) (m ((c : Thread nD τ).loc main_arg7))) := by
  have h3 : Gen.V3 m c main_v30 = Gen.V2 m c main_v30 := Gen.V3_of m c main_v30 (by decide)
  have h2 : Gen.V2 m c main_v30 = takeK (Gen.V1 m c main_v29) (Gen.V1 m c main_arg7) := take0_after (Gen.V1 m c)
  have h1 : Gen.V1 m c main_arg7 = m ((c : Thread nD τ).loc main_arg7) := (Gen.V1_of m c main_arg7 (by decide)).trans rfl
  have hval : (Gen.V3 m c main_v30 : FVec Ideal S4096x4096 .f32)
      = Cert.Spec.takeRows (Gen.V1 m c main_v29) (wrapK (m ((c : Thread nD τ).loc main_arg7))) := by
    rw [h3, h2, h1]
    exact takeK_eq _ _ (fun e => (idx_range m hpre c e).2)
  refine (trunc32_after (Gen.V3 m c)).trans ?_
  rw [hval]
  rfl

/-- The second staged array: the rows of `main_arg5` at the wrapped words of `main_arg6`; both arguments reach the
    second take as launched. -/
theorem v33_eq (hpre : Cert.Pre_KernelIdeal m) (c : Dev nD) : Gen.V4 m c main_v33
    = Cert.Spec.takeRows (m ((c : Thread nD τ).loc main_arg5)) (Cert.ReferenceIdeal.Read.val_main_v36 (F := Ideal) (m ((c : Thread nD τ).loc main_arg6))) := by
  have h3 : Gen.V3 m c main_v31 = takeK (Gen.V2 m c main_arg5) (Gen.V2 m c main_arg6) := take1_after (Gen.V2 m c)
  have h5 : Gen.V2 m c main_arg5 = m ((c : Thread nD τ).loc main_arg5) :=
    (Gen.V2_of m c main_arg5 (by decide)).trans ((Gen.V1_of m c main_arg5 (by decide)).trans rfl)
  have h6 : Gen.V2 m c main_arg6 = m ((c : Thread nD τ).loc main_arg6) :=
    (Gen.V2_of m c main_arg6 (by decide)).trans ((Gen.V1_of m c main_arg6 (by decide)).trans rfl)
  have hval : (Gen.V3 m c main_v31 : FVec Ideal S4096x4096 .f32)
      = Cert.Spec.takeRows (m ((c : Thread nD τ).loc main_arg5)) (wrapK (m ((c : Thread nD τ).loc main_arg6))) := by
    rw [h3, h5, h6]
    exact takeK_eq _ _ (fun e => (idx_range m hpre c e).1)
  refine (trunc33_after (Gen.V3 m c)).trans ?_
  rw [hval]
  rfl

end Cert.KernelIdeal.HostV

end
-- ==== Proof.KI.Asm.lean ====
/- The kernel program's result as the specification's function of its arguments: the contents @main returns with, read
   at the result array, walked back through the last reshape, region 1's matrix product, the two reshapes that feed
   it, region 0's matrix product and the two row takes that feed that. -/
import proofs.«423795_j79723182949081_2_alg».proof.Proof.KI.Run
import proofs.«423795_j79723182949081_2_alg».proof.Proof.KI.R0Value
import proofs.«423795_j79723182949081_2_alg».proof.Proof.KI.R1Value
import proofs.«423795_j79723182949081_2_alg».proof.Proof.KI.HostValue
import proofs.«423795_j79723182949081_2_alg».proof.Proof.Spec
import proofs.«423795_j79723182949081_2_alg».proof.Proof.Gen.ReferenceIdeal.Read
import proofs.«423795_j79723182949081_2_alg».proof.Proof.Gen.Pre_finite_inputs
import proofs.«423795_j79723182949081_2_alg».proof.Defs
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Asm

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## The arguments reach both regions as launched -/

theorem V4_arg0 (c : Dev nD) : Gen.V4 m c main_arg0 = m ((c : Thread nD τ).loc main_arg0) :=
  (V4_of m c main_arg0 (by decide)).trans <| (V3_of m c main_arg0 (by decide)).trans <|
    (V2_of m c main_arg0 (by decide)).trans <| (V1_of m c main_arg0 (by decide)).trans rfl
theorem V4_arg4 (c : Dev nD) : Gen.V4 m c main_arg4 = m ((c : Thread nD τ).loc main_arg4) :=
  (V4_of m c main_arg4 (by decide)).trans <| (V3_of m c main_arg4 (by decide)).trans <|
    (V2_of m c main_arg4 (by decide)).trans <| (V1_of m c main_arg4 (by decide)).trans rfl

/-! ## Region 1's three input arrays -/

/-- The activations enter region 1 as the 8192 × 4096 matrix of the argument's rows. -/
theorem e6_v35 (c : Dev nD) :
    Run.E6 m c main_v35 = shapeCast S8192x4096 (m ((c : Thread nD τ).loc main_arg0)) shapeCasts_S4x2048x4096_S8192x4096 := by
  show StableHlo.after hostOps1 (Run.W5 m c) (Proc.devRef .tc main_v35) = _
  after_results
  rw [Run.W5_of_ne m c main_arg0 (by decide)]
  exact congrArg (fun x => shapeCast S8192x4096 x shapeCasts_S4x2048x4096_S8192x4096) (V4_arg0 m c)

/-- The bias enters region 1 as a 1 × 4096 row. -/
theorem e6_v36 (c : Dev nD) :
    Run.E6 m c main_v36 = shapeCast S1x4096 (m ((c : Thread nD τ).loc main_arg4)) shapeCasts_S4096_S1x4096 := by
  show StableHlo.after hostOps1 (Run.W5 m c) (Proc.devRef .tc main_v36) = _
  after_results
  rw [Run.W5_of_ne m c main_arg4 (by decide)]
  exact congrArg (fun x => shapeCast S1x4096 x shapeCasts_S4096_S1x4096) (V4_arg4 m c)

/-- The weight enters region 1 as region 0 left it: the product of the two taken matrices. -/
theorem e6_v34 (hpre : Cert.Pre_KernelIdeal m) (c : Dev nD) :
    Run.E6 m c main_v34 = Cert.Spec.w3
      (Cert.ReferenceIdeal.Read.val_main_v29 (F := Ideal) (m ((c : Thread nD τ).loc main_arg1)) (m ((c : Thread nD τ).loc main_arg2)) (m ((c : Thread nD τ).loc main_arg3)))
      (m ((c : Thread nD τ).loc main_arg5))
      (Cert.ReferenceIdeal.Read.val_main_v36 (F := Ideal) (m ((c : Thread nD τ).loc main_arg6)))
      (Cert.ReferenceIdeal.Read.val_main_v43 (F := Ideal) (m ((c : Thread nD τ).loc main_arg7))) := by
  have h1 : Run.E6 m c main_v34 = Run.W5 m c (Proc.devRef .tc main_v34) :=
    StableHlo.after_of_writes_sub hostOps1 _ hostOps1_writes (by decide)
  rw [h1, Run.W5_arr m c 2, R0V.final (Run.E4 m) c]
  show Cert.Spec.prep (Gen.V4 m c main_v32) (Gen.V4 m c main_v33) = _
  rw [HostV.v32_eq m hpre c, HostV.v33_eq m hpre c, HostV.wt_eq m c]
  rfl

/-! ## Reshapes and the specification read at literal coordinates -/

/-- Row `b·2048 + s` of the 8192 × 4096 matrix of the activations is row (b, s) of the argument. -/
theorem rows_at (x : S4x2048x4096.Idx → EReal) (b : Fin 4) (s : Fin 2048) (k : Fin 4096) (hr : b.val * 2048 + s.val < 8192) :
    shapeCast S8192x4096 x shapeCasts_S4x2048x4096_S8192x4096 (ix2 (⟨b.val * 2048 + s.val, hr⟩ : Fin 8192) k) = x (ix3 b s k) :=
  shapeCast_apply x shapeCasts_S4x2048x4096_S8192x4096 _ (ix3 b s k)
    (by rw [Shape.rowMajor_val_two, Shape.rowMajor_val_three]; rfl)

/-- The bias as a 1 × 4096 row. -/
theorem bias_at (v : S4096.Idx → EReal) (o : Fin 4096) :
    shapeCast S1x4096 v shapeCasts_S4096_S1x4096 (ix2 (0 : Fin 1) o) = v (ix1 o) :=
  shapeCast_apply v shapeCasts_S4096_S1x4096 _ (ix1 o)
    (by rw [Shape.rowMajor_val_two, Shape.rowMajor_val_one]; simp)

/-- Entry (b, s, o) of the result is entry (b·2048 + s, o) of the 8192 × 4096 matrix region 1 leaves. -/
theorem back_at (y : S8192x4096.Idx → EReal) (b : Fin 4) (s : Fin 2048) (o : Fin 4096) (hr : b.val * 2048 + s.val < 8192) :
    shapeCast S4x2048x4096 y shapeCasts_S8192x4096_S4x2048x4096 (ix3 b s o) = y (ix2 (⟨b.val * 2048 + s.val, hr⟩ : Fin 8192) o) :=
  shapeCast_apply y shapeCasts_S8192x4096_S4x2048x4096 _ (ix2 (⟨b.val * 2048 + s.val, hr⟩ : Fin 8192) o)
    (by rw [Shape.rowMajor_val_two, Shape.rowMajor_val_three]; rfl)

theorem lin_at (x : Cert.Spec.S8192x4096.Idx → EReal) (w : Cert.Spec.S4096x4096.Idx → EReal) (v : Cert.Spec.S1x4096.Idx → EReal)
    (r : Fin 8192) (o : Fin 4096) :
    Cert.Spec.lin x w v (ix2 r o) = (∑ k : Fin 4096, x (ix2 r k) * w (ix2 o k)) + v (ix2 (0 : Fin 1) o) := rfl

theorem out_at (x : Cert.Spec.S4x2048x4096.Idx → EReal) (wt P : Cert.Spec.S4096x4096.Idx → EReal) (bias : Cert.Spec.S4096.Idx → EReal)
    (pi po : Cert.Spec.S4096.Idx → BitVec 32) (b : Fin 4) (s : Fin 2048) (o : Fin 4096) :
    Cert.Spec.out x wt P bias pi po (ix3 b s o)
      = (∑ k : Fin 4096, x (ix3 b s k) * Cert.Spec.w3 wt P pi po (ix2 o k)) + bias (ix1 o) := rfl

/-! ## The result -/

/-- The kernel program's result array is the specification's function of the arguments. -/
theorem result_eq (hpre : Cert.Pre_KernelIdeal m) (c : Dev nD) :
    Run.W8 m c (Proc.devRef .tc main_v38) = Cert.Spec.out (m ((c : Thread nD τ).loc main_arg0))
      (Cert.ReferenceIdeal.Read.val_main_v29 (F := Ideal) (m ((c : Thread nD τ).loc main_arg1)) (m ((c : Thread nD τ).loc main_arg2)) (m ((c : Thread nD τ).loc main_arg3)))
      (m ((c : Thread nD τ).loc main_arg5)) (m ((c : Thread nD τ).loc main_arg4))
      (Cert.ReferenceIdeal.Read.val_main_v36 (F := Ideal) (m ((c : Thread nD τ).loc main_arg6)))
      (Cert.ReferenceIdeal.Read.val_main_v43 (F := Ideal) (m ((c : Thread nD τ).loc main_arg7))) := by
  have h8 : Run.W8 m c (Proc.devRef .tc main_v38)
      = shapeCast S4x2048x4096 (Run.W7 m c (Proc.devRef .tc main_v37)) shapeCasts_S8192x4096_S4x2048x4096 := by
    show StableHlo.after hostOps2 (Run.W7 m c) (Proc.devRef .tc main_v38) = _
    after_results
    rfl
  rw [h8, Run.W7_arr m c 3, R1V.final (Run.E6 m) c, e6_v35 m c, e6_v36 m c, e6_v34 m hpre c]
  funext i
  obtain ⟨b, s, o, rfl⟩ : ∃ (b : Fin 4) (s : Fin 2048) (o : Fin 4096), i = ix3 b s o := ⟨i 0, i 1, i 2, eq_ix3 i⟩
  have hr : b.val * 2048 + s.val < 8192 := by have := b.isLt; have := s.isLt; omega
  refine (back_at _ b s o hr).trans ?_
  refine (lin_at _ _ _ _ o).trans ((congrArg₂ (· + ·) (Finset.sum_congr rfl fun k _ => congrArg₂ (· * ·) (rows_at _ b s k hr) rfl)
    (bias_at _ o)).trans (out_at _ _ _ _ _ _ b s o).symm)

end Cert.KernelIdeal.Asm

end
-- ==== Proof.LibColGather.lean ====
/-
  The column gather of a matrix, READ AT AN INDEX, over generic extents: an operand of `D` rows and `N` columns,
  `E` start indices, result `D × E`.

  The gather `[D, N] → [D, E]` at a column `[E, 1]` of start indices (`gathC`) takes whole columns: result `(q, e)`
  is the operand at `(q, row (idx (e, 0)))`, where `row` is the function of the index word the row gather uses: the
  word read signed and clamped into `[0, N − 1]`. It is the row gather with the two operand axes exchanged: axis 1 is
  collapsed and start-indexed, axis 0 is the offset axis of full height.
-/
import proofs.«423795_j79723182949081_2_alg».proof.Proof.LibGatherScatter

namespace Cert.Proof.GS

open Idealize.ShloMosaic Idealize.ShloMosaic.ValueIdx

/-- Column gather: operand `[D, N]`, start indices `[E, 1]`, result `[D, E]`; axis 1 collapsed and start-indexed,
    axis 0 an offset axis of full height. -/
abbrev gathC (N E D : Nat) (wf : GatherDims.WF ⟨2, ![D, N]⟩ ⟨2, ![E, 1]⟩ ⟨2, ![D, E]⟩ [0] [1] [] [1] [] 1 ![D, 1]) :
    GatherDims ⟨2, ![D, N]⟩ ⟨2, ![E, 1]⟩ ⟨2, ![D, E]⟩ where
  offsetDims := [0]
  collapsedSliceDims := [1]
  operandBatchingDims := []
  startIndicesBatchingDims := []
  startIndexMap := [1]
  indexVectorDim := 1
  sliceSizes := ![D, 1]
  wf := wf

variable {α : Type}

/-- THE COLUMN GATHER AT `(q, e)`: the operand at row `q`, column `row (idx (e, 0))`. On axis 0 (not start-indexed,
    kept) the operand coordinate is the offset coordinate `q`; on axis 1 (collapsed, no batching) it is the clamped
    start read at the result's batch coordinate `e`. -/
theorem gather_gathC_apply {N E D w : Nat} (hN : 0 < N)
    (wf : GatherDims.WF ⟨2, ![D, N]⟩ ⟨2, ![E, 1]⟩ ⟨2, ![D, E]⟩ [0] [1] [] [1] [] 1 ![D, 1])
    (x : (⟨2, ![D, N]⟩ : Shape).Idx → α) (idx : IVec ⟨2, ![E, 1]⟩ w) (q : Fin D) (e : Fin E) :
    Host.gather (gathC N E D wf) x idx (ix2 q e) = x (ix2 q (row hN (idx (ix2 e (0 : Fin 1))))) := by
  unfold Host.gather
  congr 1
  funext a
  refine Fin.ext ?_
  match a with
  | ⟨0, _⟩ =>
    -- the offset axis: start 0, no batching coordinate, offset coordinate q
    show (gathC N E D wf).start (ix2 q e) idx 0 + (gathC N E D wf).batchCoord (ix2 q e) 0
      + (gathC N E D wf).offCoord (ix2 q e) 0 = q.val
    rw [GatherDims.batchCoord_eq_zero _ _ _ List.not_mem_nil]
    have h0 : (0 : Fin 2) ∉ (gathC N E D wf).startIndexMap :=
      show (0 : Fin 2) ∉ ([1] : List (Fin 2)) by decide
    have hk : (0 : Fin 2) ∈ (gathC N E D wf).sKept :=
      (GatherDims.mem_sKept _ _).mpr ⟨show (0 : Fin 2) ∉ ([1] : List (Fin 2)) by decide, List.not_mem_nil⟩
    unfold GatherDims.start GatherDims.offCoord
    rw [dif_neg h0, dif_pos hk]
    simp only [Nat.zero_add]
    rfl
  | ⟨1, _⟩ =>
    -- the collapsed axis: the clamped start, nothing else
    show (gathC N E D wf).start (ix2 q e) idx 1 + (gathC N E D wf).batchCoord (ix2 q e) 1
      + (gathC N E D wf).offCoord (ix2 q e) 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ (gathC N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl

end Cert.Proof.GS
-- ==== Proof.RefValue.lean ====
/-
  THE REFERENCE PROGRAM'S RESULT IS THE SPECIFICATION, at the ideal instance.

  The reference's last ten stages, read at an index (b, s, o) of the result:

      main_v31[r, c] = Σ_q wt[r, q] · P[c, q]                 (wt times the transpose of P)
      main_v38[r, j] = main_v31[r, row (pi j)]                (whole columns taken at the words pi)
      main_v45[o, j] = main_v38[row (po o), j]                (whole rows taken at the words po)
      main_v46[b, s, o] = Σ_k x[b, s, k] · main_v45[o, k]
      main_v49[b, s, o] = main_v46[b, s, o] + bias[o]

  so main_v45[o, k] = Σ_q wt[row (po o), q] · P[row (pi k), q], which is the specification's permuted frame weight
  `w3 wt P pi po` at (o, k), and the result is the specification's `out`. Here `wt` is the dequantised weight (stage
  main_v29, entering as ONE function of its three arguments), `pi` and `po` are the two index vectors
  after the wrap of negative words (stages main_v36 and main_v43, entering as functions of one argument each), and
  `row` reads an index word signed and clamps it into [0, 4095].
-/
import proofs.«423795_j79723182949081_2_alg».proof.Proof.Gen.ReferenceIdeal.Read
import proofs.«423795_j79723182949081_2_alg».proof.Proof.Spec
import proofs.«423795_j79723182949081_2_alg».proof.Proof.LibColGather

noncomputable section

open scoped BigOperators

namespace Cert.ReferenceIdeal.RefV

open Cert.ReferenceIdeal Cert.ReferenceIdeal.Gen Idealize.ShloMosaic Idealize.ShloMosaic.TcCoe Idealize.SL.Sem
  Idealize.ShloMosaic.StableHlo Idealize.ShloMosaic.ValueIdx

/-! ## The two gathers at an index -/

/-- At extent 4096 the row the gathers read for an index word is the specification's `row`: the same clamp. -/
theorem row_eq (p : BitVec 32) : Cert.Proof.GS.row (N := 4096) (by decide) p = Cert.Spec.row p := Fin.ext rfl

/-- The program's column gather at (r, j): the operand at row r, column `row (idx (j, 0))`. Its record is the
    general column gather at N = E = D = 4096. -/
theorem colGather_apply (y : (⟨S4096x4096, .f32⟩ : BufTy).Contents (Elt Ideal))
    (idx : (⟨S4096x1, .i32⟩ : BufTy).Contents (Elt Ideal)) (r j : Fin 4096) :
    Host.gather gather_S4096x4096_S4096x1_S4096x4096_0_1_n_n_1_1_40961 y idx (ix2 r j)
      = y (ix2 r (Cert.Spec.row (idx (ix2 j (0 : Fin 1))))) :=
  (Cert.Proof.GS.gather_gathC_apply (N := 4096) (E := 4096) (D := 4096) (by decide)
    Facts₀.gather_S4096x4096_S4096x1_S4096x4096_0_1_n_n_1_1_40961_wf y idx r j).trans (by rw [row_eq])

/-- The program's row gather at (o, j): the operand at row `row (idx (o, 0))`, column j. Its record is the general
    row gather at N = E = D = 4096. -/
theorem rowGather_apply (y : (⟨S4096x4096, .f32⟩ : BufTy).Contents (Elt Ideal))
    (idx : (⟨S4096x1, .i32⟩ : BufTy).Contents (Elt Ideal)) (o j : Fin 4096) :
    Host.gather gather_S4096x4096_S4096x1_S4096x4096_1_0_n_n_0_1_14096 y idx (ix2 o j)
      = y (ix2 (Cert.Spec.row (idx (ix2 o (0 : Fin 1)))) j) :=
  (Cert.Proof.GS.gather_gathD_apply (N := 4096) (E := 4096) (D := 4096) (by decide)
    Facts₀.gather_S4096x4096_S4096x1_S4096x4096_1_0_n_n_0_1_14096_wf y idx o j).trans (by rw [row_eq])

/-! ## The composed index functions at literal coordinates -/

/-- The left operand of the last product is read at (b, s, k). -/
theorem lidx46 (b : Fin 4) (s : Fin 2048) (o k : Fin 4096) : Read.lidx_main_v46 (ix3 b s o) k = ix3 b s k :=
  funext fun a => Fin.ext (by match a with | ⟨0, _⟩ => rfl | ⟨1, _⟩ => rfl | ⟨2, _⟩ => rfl)

/-- The right operand of the last product is read at (o, k): the product contracts the permuted weight's columns. -/
theorem ridx46 (b : Fin 4) (s : Fin 2048) (o k : Fin 4096) : Read.ridx_main_v46 (ix3 b s o) k = ix2 o k :=
  funext fun a => Fin.ext (by match a with | ⟨0, _⟩ => rfl | ⟨1, _⟩ => rfl)

/-- The bias, broadcast along the two leading axes, is read at o. -/
theorem idx47_48 (b : Fin 4) (s : Fin 2048) (o : Fin 4096) :
    Read.idx_main_v47 (Read.idx_main_v48 (ix3 b s o)) = ix1 o :=
  funext fun a => Fin.ext (by match a with | ⟨0, _⟩ => rfl)

/-- The column of output index words at (o, 0) is the word of o. -/
theorem idx44 (o : Fin 4096) : Read.idx_main_v44 (ix2 o (0 : Fin 1)) = ix1 o :=
  funext fun a => Fin.ext (by match a with | ⟨0, _⟩ => rfl)

/-- The column of input index words at (k, 0) is the word of k. -/
theorem idx37 (k : Fin 4096) : Read.idx_main_v37 (ix2 k (0 : Fin 1)) = ix1 k :=
  funext fun a => Fin.ext (by match a with | ⟨0, _⟩ => rfl)

/-- The left operand of the first product is read at (r, q). -/
theorem lidx31 (r c q : Fin 4096) : Read.lidx_main_v31 (ix2 r c) q = ix2 r q :=
  funext fun a => Fin.ext (by match a with | ⟨0, _⟩ => rfl | ⟨1, _⟩ => rfl)

/-- The right operand of the first product, the transpose of P, is read at (q, c) … -/
theorem ridx31 (r c q : Fin 4096) : Read.ridx_main_v31 (ix2 r c) q = ix2 q c :=
  funext fun a => Fin.ext (by match a with | ⟨0, _⟩ => rfl | ⟨1, _⟩ => rfl)

/-- … which is P at (c, q). -/
theorem idx30 (q c : Fin 4096) : Read.idx_main_v30 (ix2 q c) = ix2 c q :=
  funext fun a => Fin.ext (by match a with | ⟨0, _⟩ => rfl | ⟨1, _⟩ => rfl)

/-! ## The permuted weight, then the result -/

/-- THE PERMUTED WEIGHT: stage main_v45 at (o, k) is the sum over q of wt[row (po o), q] · P[row (pi k), q], the
    specification's `w3` at (o, k). The row gather reads row `row (po o)` of the column gather, which reads column
    `row (pi k)` of the product wt · Pᵀ. -/
theorem v45_apply (x1 : (⟨S1048576, .i32⟩ : BufTy).Contents (Elt Ideal)) (x2 : (⟨S256, .i32⟩ : BufTy).Contents (Elt Ideal))
    (x3 : (⟨S4096x1, .f32⟩ : BufTy).Contents (Elt Ideal)) (x5 : (⟨S4096x4096, .f32⟩ : BufTy).Contents (Elt Ideal))
    (x6 x7 : (⟨S4096, .i32⟩ : BufTy).Contents (Elt Ideal)) (o k : Fin 4096) :
    Read.val_main_v45 (F := Ideal) x1 x2 x3 x5 x6 x7 (ix2 o k)
      = Cert.Spec.w3 (Read.val_main_v29 (F := Ideal) x1 x2 x3) x5 (Read.val_main_v36 (F := Ideal) x6)
          (Read.val_main_v43 (F := Ideal) x7) (ix2 o k) := by
  unfold Read.val_main_v45 Read.val_main_v38
  rw [rowGather_apply, colGather_apply, Read.val_main_v44_apply, Read.val_main_v37_apply, idx44, idx37,
    Read.val_main_v31_apply]
  generalize Read.val_main_v29 (F := Ideal) x1 x2 x3 = wt
  generalize Read.val_main_v36 (F := Ideal) x6 = pi
  generalize Read.val_main_v43 (F := Ideal) x7 = po
  show _ = ∑ q : Fin 4096, wt (ix2 (Cert.Spec.row (po (ix1 o))) q) * x5 (ix2 (Cert.Spec.row (pi (ix1 k))) q)
  refine Finset.sum_congr rfl fun q _ => ?_
  rw [lidx31, ridx31, Read.val_main_v30_apply, idx30]

/-- THE RESULT: the reference's last stage is the specification's `out` of the dequantised weight and the two wrapped
    index vectors: at (b, s, o), the sum over k of x[b, s, k] · w3[o, k], plus bias[o]. -/
theorem result_eq (x0 : (⟨S4x2048x4096, .f32⟩ : BufTy).Contents (Elt Ideal))
    (x1 : (⟨S1048576, .i32⟩ : BufTy).Contents (Elt Ideal)) (x2 : (⟨S256, .i32⟩ : BufTy).Contents (Elt Ideal))
    (x3 : (⟨S4096x1, .f32⟩ : BufTy).Contents (Elt Ideal)) (x4 : (⟨S4096, .f32⟩ : BufTy).Contents (Elt Ideal))
    (x5 : (⟨S4096x4096, .f32⟩ : BufTy).Contents (Elt Ideal)) (x6 x7 : (⟨S4096, .i32⟩ : BufTy).Contents (Elt Ideal)) :
    Read.val_main_v49 (F := Ideal) x0 x1 x2 x3 x4 x5 x6 x7
      = Cert.Spec.out x0 (Read.val_main_v29 (F := Ideal) x1 x2 x3) x5 x4 (Read.val_main_v36 (F := Ideal) x6)
          (Read.val_main_v43 (F := Ideal) x7) := by
  funext i
  obtain ⟨b, s, o, rfl⟩ : ∃ b s o, i = ix3 b s o := ⟨i 0, i 1, i 2, eq_ix3 i⟩
  rw [Read.val_main_v49_apply, Read.val_main_v46_apply, Read.val_main_v48_apply, Read.val_main_v47_apply, idx47_48]
  show (∑ k : Fin 4096, _) + x4 (ix1 o) = (∑ k : Fin 4096, x0 (ix3 b s k) * Cert.Spec.w3 _ x5 _ _ (ix2 o k)) + x4 (ix1 o)
  congr 1
  refine Finset.sum_congr rfl fun k _ => ?_
  rw [lidx46, ridx46, v45_apply]

end Cert.ReferenceIdeal.RefV

end
-- ==== Proof.lean ====
/- The five claims of the certificate.

   The kernel program dequantises a 2-bit weight matrix `wt`, takes its rows at `perm_out` and the frame matrix's rows
   at `perm_in`, multiplies the two (region 0: `w3 = wt[perm_out] · P[perm_in]ᵀ`, K-blocked with an accumulator), and
   applies the result as a dense layer (region 1: `x · w3ᵀ + bias`, K-blocked the same way). The reference multiplies
   first and permutes afterwards: `(wt · Pᵀ)[:, perm_in][perm_out, :]`. Entry by entry both are
   `Σ_k wt[perm_out o, k] · P[perm_in j, k]`, so over the extended reals the two results are one function of the
   arguments (`Cert.Spec.out`); only commutativity and associativity of the sum are used, so finiteness is not.
   The precondition's index ranges are used once: a take at an index outside the axis fills with a value the
   reference's indexing does not produce, and inside the range the two agree.

   The frames of the two kernel programs are the launch of @main as eight items (four host stretches, region 0, a
   stretch, region 1, a stretch); the reference's frame is its run with the result dropped. -/
import proofs.«423795_j79723182949081_2_alg».proof.Defs
import proofs.«423795_j79723182949081_2_alg».proof.Proof.Gen.Kernel
import proofs.«423795_j79723182949081_2_alg».proof.Proof.Gen.KernelIdeal
import proofs.«423795_j79723182949081_2_alg».proof.Proof.Gen.ReferenceIdeal
import proofs.«423795_j79723182949081_2_alg».proof.Proof.Gen.ReferenceIdeal.Run
import proofs.«423795_j79723182949081_2_alg».proof.Proof.Gen.ReferenceIdeal.Read
import proofs.«423795_j79723182949081_2_alg».proof.Proof.Gen.Pre_finite_inputs
import proofs.«423795_j79723182949081_2_alg».proof.Proof.K.Run
import proofs.«423795_j79723182949081_2_alg».proof.Proof.KI.Run
import proofs.«423795_j79723182949081_2_alg».proof.Proof.KI.Asm
import proofs.«423795_j79723182949081_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame m ρ

theorem frame_ki : Cert.frame_KernelIdeal := fun m ρ _ => Cert.KernelIdeal.Run.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result array at the specification's function of their (agreeing) arguments. -/
theorem algebraic : Cert.algebraic_KernelIdeal_ReferenceIdeal := by
  intro m ρ m' ρ' hpre hagree
  refine ⟨_, (θ_run Cert.KernelIdeal.defs _ _).mono
    (fun r h c => ⟨(h c).1.trans (Cert.KernelIdeal.Asm.result_eq m hpre c), (h c).2⟩)
    (Cert.KernelIdeal.Run.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefV.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
